-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v1_1)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_v1_1) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v21) = v5 c
          ∧ r.2.mem ((c.tc : Thread Cert.ReferenceIdeal.nD Cert.ReferenceIdeal.τ).loc Cert.ReferenceIdeal.main_v23) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S2 : Shape := ⟨1, ![2]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel

variable [Facts]

def fn {F : FTy → Type} [FloatOps F] (main_arg0 : FVec F S1x8192 .f32) (main_arg1 : FVec F S1x8192 .f32) (main_arg2 : FVec F S1x8192 .f32) (main_arg3 : IVec S2 32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S1x8192 : Shape := ⟨2, ![1, 8192]⟩
abbrev S2 : Shape := ⟨1, ![2]⟩
abbrev S8192x8192 : Shape := ⟨2, ![8192, 8192]⟩
abbrev S1x512 : Shape := ⟨2, ![1, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S2, .i32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S8192x8192, .f32⟩
  | .hbm, ⟨12, _⟩ => ⟨S8192x8192, .f32⟩
  | .local _ .vmem, ⟨0, _⟩ => ⟨S1x8192, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1x8192, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![16, 16], ![false, false]⟩

def k1_cond1 (i : grid1.Coords) : BitVec 1 :=
  let arg0 : BitVec 32 := BitVec.ofNat 32 (i 0).val
  let arg1 : BitVec 32 := BitVec.ofNat 32 (i 1).val
  let v0 : BitVec 1 := Scalar.cmpi .eq arg0 arg1
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let arg1 : BitVec 32 := BitVec.ofNat 32 (i 1).val
  let v3 : BitVec 1 := Scalar.cmpi .ne arg0 arg1
  let v4 : BitVec 32 := Scalar.extui v3
  let c0_i32_0 : BitVec 32 := 0#32
  let v5 : BitVec 1 := Scalar.cmpi .ne v4 c0_i32_0
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x8192_S1x8192_0_0 : ∀ a, (![0, 0] : Fin 2 → Nat) a + S1x8192.size a ≤ S1x8192.size a
  h_S1x8192 : 0 < S1x8192.numel
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8192.size a ≤ S1x8192.size a
  hwx0_8 : ∀ i : grid0.Coords, EltTy.bits .f32 = 32 ∨ (Rect.block (s := S1x8192) S1x8192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8192.size a ≤ S1x8192.size a
  hwx0_9 : ∀ i : grid0.Coords, EltTy.bits .f32 = 32 ∨ (Rect.block (s := S1x8192) S1x8192.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x8192.size a
  hwx1_0 : ∀ i : grid1.Coords, EltTy.bits .f32 = 32 ∨ (Rect.block (s := S1x8192) S1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x8192.size a
  hwx1_1 : ∀ i : grid1.Coords, EltTy.bits .f32 = 32 ∨ (Rect.block (s := S1x8192) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x8192.size a
  hwx1_2 : ∀ i : grid1.Coords, EltTy.bits .f32 = 32 ∨ (Rect.block (s := S8192x8192) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x8192.size a
  hwx1_3 : ∀ i : grid1.Coords, EltTy.bits .f32 = 32 ∨ (Rect.block (s := S8192x8192) S512x512.size (cc1_transform_3 i) (hinb1_3 i)).WholeWords (EltTy.packing .f32)

variable [Facts₀]

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8192.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8192.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x8192.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x8192.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1x8192.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_6) S1x8192.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_3) S1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_4) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S512x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond1 i == 1#1) && !(k1_cond2 i == 1#1) | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S1x8192 : Shape := ⟨2, ![1, 8192]⟩
abbrev S2 : Shape := ⟨1, ![2]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S2, .i32⟩
  | .hbm, ⟨4, _⟩ => ⟨S_, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .i1⟩
  | .hbm, ⟨10, _⟩ => ⟨S_, .f32⟩
  | .hbm, ⟨11, _⟩ => ⟨S1x8192, .f32⟩
  | .hbm, ⟨12, _⟩ => ⟨S1x8192, .i1⟩
  | .hbm, ⟨13, _⟩ => ⟨S1x8192, .i1⟩
  | .hbm, ⟨14, _⟩ => ⟨S1x8192, .i1⟩
  | .hbm, ⟨15, _⟩ => ⟨S1x8192, .i1⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S_, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S_, .f32⟩
  | .hbm, ⟨31, _⟩ => ⟨S_, .f32⟩
  | .hbm, ⟨32, _⟩ => ⟨S1x8192, .f32⟩
  | .hbm, ⟨33, _⟩ => ⟨S1x8192, .f32⟩
  | .hbm, ⟨34, _⟩ => ⟨S_, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S_, .f32⟩
  | .hbm, ⟨40, _⟩ => ⟨S_, .f32⟩
  | .hbm, ⟨41, _⟩ => ⟨S1x8192, .f32⟩
  | .hbm, ⟨42, _⟩ => ⟨S1x8192, .f32⟩
  | .hbm, ⟨43, _⟩ => ⟨S_, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S_, .f32⟩
  | .hbm, ⟨48, _⟩ => ⟨S1x8192, .f32⟩
  | .hbm, ⟨49, _⟩ => ⟨S1x8192, .f32⟩
  | .hbm, ⟨50, _⟩ => ⟨S_, .f32⟩
  | .hbm, ⟨51, _⟩ => ⟨S_, .f32⟩
  | .hbm, ⟨52, _⟩ => ⟨S1x8192, .f32⟩
  | .hbm, ⟨53, _⟩ => ⟨S1x8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192x8192, .i32⟩
  | .hbm, ⟨58, _⟩ => ⟨S8192x8192, .i32⟩
  | .hbm, ⟨59, _⟩ => ⟨S_, .i32⟩
  | .hbm, ⟨60, _⟩ => ⟨S8192x8192, .i32⟩
  | .hbm, ⟨61, _⟩ => ⟨S8192x8192, .i32⟩
  | .hbm, ⟨62, _⟩ => ⟨S8192x8192, .i1⟩
  | .hbm, ⟨63, _⟩ => ⟨S8192x1, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192x8192, .i32⟩
  | .hbm, ⟨72, _⟩ => ⟨S8192x8192, .i32⟩
  | .hbm, ⟨73, _⟩ => ⟨S_, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S8192x1, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call3_v0 : Ref sig .tc := ⟨.hbm, 25, rfl⟩
abbrev main_call3_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call5_v0 : Ref sig .tc := ⟨.hbm, 31, rfl⟩
abbrev main_call5_v1 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call6_v0 : Ref sig .tc := ⟨.hbm, 36, rfl⟩
abbrev main_call6_v1 : Ref sig .tc := ⟨.hbm, 37, rfl⟩
abbrev main_v18 : Ref sig .tc := ⟨.hbm, 38, rfl⟩
abbrev main_cst_7 : Ref sig .tc := ⟨.hbm, 39, rfl⟩
abbrev main_call7_v0 : Ref sig .tc := ⟨.hbm, 40, rfl⟩
abbrev main_call7_v1 : Ref sig .tc := ⟨.hbm, 41, rfl⟩
abbrev main_v19 : Ref sig .tc := ⟨.hbm, 42, rfl⟩
abbrev main_cst_8 : Ref sig .tc := ⟨.hbm, 43, rfl⟩
abbrev main_call8_v0 : Ref sig .tc := ⟨.hbm, 44, rfl⟩
abbrev main_call8_v1 : Ref sig .tc := ⟨.hbm, 45, rfl⟩
abbrev main_v20 : Ref sig .tc := ⟨.hbm, 46, rfl⟩
abbrev main_cst_9 : Ref sig .tc := ⟨.hbm, 47, rfl⟩
abbrev main_v21 : Ref sig .tc := ⟨.hbm, 48, rfl⟩
abbrev main_v22 : Ref sig .tc := ⟨.hbm, 49, rfl⟩
abbrev main_cst_10 : Ref sig .tc := ⟨.hbm, 50, rfl⟩
abbrev main_call9_v0 : Ref sig .tc := ⟨.hbm, 51, rfl⟩
abbrev main_call9_v1 : Ref sig .tc := ⟨.hbm, 52, rfl⟩
abbrev main_v23 : Ref sig .tc := ⟨.hbm, 53, rfl⟩
abbrev main_v24 : Ref sig .tc := ⟨.hbm, 54, rfl⟩
abbrev main_call10_cst : Ref sig .tc := ⟨.hbm, 55, rfl⟩
abbrev main_call10_v0 : Ref sig .tc := ⟨.hbm, 56, rfl⟩
abbrev main_call10_v1 : Ref sig .tc := ⟨.hbm, 57, rfl⟩
abbrev main_call10_v2 : Ref sig .tc := ⟨.hbm, 58, rfl⟩
abbrev main_call10_c : Ref sig .tc := ⟨.hbm, 59, rfl⟩
abbrev main_call10_v3 : Ref sig .tc := ⟨.hbm, 60, rfl⟩
abbrev main_call10_v4 : Ref sig .tc := ⟨.hbm, 61, rfl⟩
abbrev main_call10_v5 : Ref sig .tc := ⟨.hbm, 62, rfl⟩
abbrev main_call10_v6 : Ref sig .tc := ⟨.hbm, 63, rfl⟩
abbrev main_call10_cst_0 : Ref sig .tc := ⟨.hbm, 64, rfl⟩
abbrev main_call10_call0_v0 : Ref sig .tc := ⟨.hbm, 65, rfl⟩
abbrev main_call10_call0_v1 : Ref sig .tc := ⟨.hbm, 66, rfl⟩
abbrev main_v25 : Ref sig .tc := ⟨.hbm, 67, rfl⟩
abbrev main_v26 : Ref sig .tc := ⟨.hbm, 68, rfl⟩
abbrev main_call11_cst : Ref sig .tc := ⟨.hbm, 69, rfl⟩
abbrev main_call11_v0 : Ref sig .tc := ⟨.hbm, 70, rfl⟩
abbrev main_call11_v1 : Ref sig .tc := ⟨.hbm, 71, rfl⟩
abbrev main_call11_v2 : Ref sig .tc := ⟨.hbm, 72, rfl⟩
abbrev main_call11_c : Ref sig .tc := ⟨.hbm, 73, rfl⟩
abbrev main_call11_v3 : Ref sig .tc := ⟨.hbm, 74, rfl⟩
abbrev main_call11_v4 : Ref sig .tc := ⟨.hbm, 75, rfl⟩
abbrev main_call11_v5 : Ref sig .tc := ⟨.hbm, 76, rfl⟩
abbrev main_call11_v6 : Ref sig .tc := ⟨.hbm, 77, rfl⟩
abbrev main_call11_cst_0 : Ref sig .tc := ⟨.hbm, 78, rfl⟩
abbrev main_call11_call0_v0 : Ref sig .tc := ⟨.hbm, 79, rfl⟩
abbrev main_call11_call0_v1 : Ref sig .tc := ⟨.hbm, 80, rfl⟩
abbrev main_v27 : Ref sig .tc := ⟨.hbm, 81, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  shapeCasts_S1x8192_S8192 : S1x8192.ShapeCasts S8192
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.Kernel.Region0.lean ====
import proofs.«171835_j2800318677430_1_alg».proof.Proof.Gen.Kernel.Launch
import proofs.«171835_j2800318677430_1_alg».proof.Proof.Gen.Kernel.Skeleton
import proofs.«171835_j2800318677430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The elementwise region: the ReLU relaxation's seven rows

The program's first stage runs its body once. Each of its ten windows is a whole `[1, 8192]` row: three inputs (the
pre-activation `x` and its bounds `lo ≤ x ≤ up`) and seven outputs. The body reads every input through the one
rectangle that is the whole row, computes each output row entry by entry from the inputs, and stores it through
the same rectangle. So what the body leaves in an output's buffer is a function of the three input rows alone,
whatever the buffer held before; this module names those seven functions, proves the body's triple against them,
and packages the result as the pipeline's proof data at ANY contents `V` of the core's buffers at entry.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the region is entered; everything below holds at any such contents
variable (V : (c : Dev nD) → (b : Ref sig .tc) → Buf (Elt F) ((c : Thread nD τ).loc b))

/-! ## The windows' blocks -/

/-- Window `w`'s block at point `t`: the part of its array, as the region finds it, that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (`x`): at every point the body finds its block in the staging buffer. The pipeline
    copies the block in where it fetches; where it does not, the block index has not moved since the last fetch
    and the body left the block in place (`hafter`), so the buffer still holds it. Stated for any proof data over
    the entry contents (`hA`). -/
theorem staged0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (`lo`): at every point the body finds its block in the staging buffer. The pipeline
    copies the block in where it fetches; where it does not, the block index has not moved since the last fetch
    and the body left the block in place (`hafter`), so the buffer still holds it. Stated for any proof data over
    the entry contents (`hA`). -/
theorem staged0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (`up`): at every point the body finds its block in the staging buffer. The pipeline
    copies the block in where it fetches; where it does not, the block index has not moved since the last fetch
    and the body left the block in place (`hafter`), so the buffer still holds it. Stated for any proof data over
    the entry contents (`hA`). -/
theorem staged0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle -/

/-- Every load and store of the body goes through the whole row: offsets zero, the row's own extents. -/
abbrev rowRect : Rect S1x8192 := Rect.unit (s := S1x8192) ![0, 0] S1x8192.size inb_S1x8192_S1x8192_0_0

/-- Its offsets are zero on both axes. -/
theorem rowRect_offsets : (![0, 0] : Fin 2 → Nat) = fun _ => 0 := funext fun a => by fin_cases a <;> rfl

/-- A single store through the whole row covers the row: every index lies in the rectangle. -/
theorem rowRect_covers (p : Vec F S1x8192 .f32) (y : S1x8192.Idx) :
    ∃ pc ∈ ([⟨rowRect, p⟩] : List (View.Piece (Elt F) S1x8192 .f32)), y ∈ pc.1.set :=
  ⟨_, List.mem_singleton_self _, View.mem_set_unit_zero rowRect_offsets inb_S1x8192_S1x8192_0_0 y⟩

/-! ## What the body leaves in each output row

Each is the contents a buffer holds after ONE store through the whole row of the named payload, the payload taken
of the input rows as loaded through the whole row. Entry by entry, with `neg := up ≤ 0` (the unit is dead),
`pos := lo ≥ 0` (the unit is the identity), `cross := ¬neg ∧ ¬pos` (the bounds straddle zero) and
`slope := up / (up - lo)` on `cross`, zero off it (the divisor is replaced by one off `cross`, so nothing divides
by a difference that may vanish), the seven rows are the ReLU of `x`, the two bounds it returns, the diagonals of
the lower and upper relaxations' weights, and their biases. -/

/-- Window 3. The ReLU of the input: `max x 0`. -/
def rowRelu (x : Vec F S1x8192 .f32) : Vec F S1x8192 .f32 :=
  View.canon [⟨rowRect, k0_pay8 (View.ld x rowRect)⟩]

/-- Window 4. The lower bound returned: zero on `neg`, `lo` elsewhere. -/
def rowLowerRet (lo : Vec F S1x8192 .f32) (up : Vec F S1x8192 .f32) : Vec F S1x8192 .f32 :=
  View.canon [⟨rowRect, k0_pay9 (View.ld lo rowRect) (View.ld up rowRect)⟩]

/-- Window 5. The upper bound returned: zero on `neg`, `up` on `pos`, `slope * up` on `cross`. -/
def rowUpperRet (lo : Vec F S1x8192 .f32) (up : Vec F S1x8192 .f32) : Vec F S1x8192 .f32 :=
  View.canon [⟨rowRect, k0_pay10 (View.ld lo rowRect) (View.ld up rowRect)⟩]

/-- Window 6. The diagonal of the lower relaxation's weight: zero on `neg`, one elsewhere. -/
def rowLowerW (up : Vec F S1x8192 .f32) : Vec F S1x8192 .f32 :=
  View.canon [⟨rowRect, k0_pay11 (View.ld up rowRect)⟩]

/-- Window 7. The diagonal of the upper relaxation's weight: zero on `neg`, one on `pos`, `slope` on `cross`. -/
def rowUpperW (lo : Vec F S1x8192 .f32) (up : Vec F S1x8192 .f32) : Vec F S1x8192 .f32 :=
  View.canon [⟨rowRect, k0_pay1 (k0_pay4 (View.ld up rowRect)) (k0_pay5 (View.ld lo rowRect)) (k0_pay7 (View.ld lo rowRect) (View.ld up rowRect))⟩]

/-- Window 8. The lower relaxation's bias: zero everywhere. -/
def rowLowerB : Vec F S1x8192 .f32 :=
  View.canon [⟨rowRect, k0_pay2 (F := F)⟩]

/-- Window 9. The upper relaxation's bias: `slope * lo` on `cross`, zero elsewhere. -/
def rowUpperB (lo : Vec F S1x8192 .f32) (up : Vec F S1x8192 .f32) : Vec F S1x8192 .f32 :=
  View.canon [⟨rowRect, k0_pay3 (View.ld lo rowRect) (k0_pay6 (View.ld lo rowRect) (View.ld up rowRect)) (k0_pay7 (View.ld lo rowRect) (View.ld up rowRect))⟩]

/-! ## The body's triple -/

set_option maxHeartbeats 1000000 in
/-- The body on ten whole staging memrefs: given the three inputs at contents read as `x`, `lo`, `up` and the seven
    outputs at anything, it runs to a state where the inputs are as they were and each output reads as its row above.
    The body is a straight line of loads and stores through the whole row, so the run is symbolic: each stored payload is
    read off the program, and one covering store determines the buffer whatever it held. -/
theorem elementwise_body_triple (c : Dev nD) (E : Set ℕ) (i : grid0.Coords) (arg1 : Memref sig .tc .vmem S1x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S1x8192 .f32) (harg10 : arg10.IsWhole)
    (x lo up : Vec F S1x8192 .f32) (K : PUnit → sProp 𝕄) :
    iprop(owns (c : Thread nD τ) arg1 fullShare x ∗ owns (c : Thread nD τ) arg2 fullShare lo ∗ owns (c : Thread nD τ) arg3 fullShare up
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare lo ∗ owns (c : Thread nD τ) arg3 fullShare up
            ∗ owns (c : Thread nD τ) arg4 fullShare (rowRelu x)
            ∗ owns (c : Thread nD τ) arg5 fullShare (rowLowerRet lo up)
            ∗ owns (c : Thread nD τ) arg6 fullShare (rowUpperRet lo up)
            ∗ owns (c : Thread nD τ) arg7 fullShare (rowLowerW up)
            ∗ owns (c : Thread nD τ) arg8 fullShare (rowUpperW lo up)
            ∗ owns (c : Thread nD τ) arg9 fullShare (rowLowerB (F := F))
            ∗ owns (c : Thread nD τ) arg10 fullShare (rowUpperB lo up)) -∗ K ⟨⟩))
      ⊢ wp frame (wpE (defs₀ (F := F)) Variants.none c none) E (cc0__elementwise_kernel i arg1 harg1 arg2 harg2 arg3 harg3 arg4 harg4 arg5 harg5 arg6 harg6 arg7 harg7 arg8 harg8 arg9 harg9 arg10 harg10) K := by
  simp only [cc0__elementwise_kernel_eq_skeleton]; unfold cc0__elementwise_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (rowRect_covers _)
  isplitl [H4]
  · iexists _; isplitr
    swap; · iexact H4
    ipureintro
    exact View.read_writes_eq_canon _ _ _ (rowRect_covers _)
  isplitl [H5]
  · iexists _; isplitr
    swap; · iexact H5
    ipureintro
    exact View.read_writes_eq_canon _ _ _ (rowRect_covers _)
  isplitl [H6]
  · iexists _; isplitr
    swap; · iexact H6
    ipureintro
    exact View.read_writes_eq_canon _ _ _ (rowRect_covers _)
  isplitl [H7]
  · iexists _; isplitr
    swap; · iexact H7
    ipureintro
    exact View.read_writes_eq_canon _ _ _ (rowRect_covers _)
  isplitl [H8]
  · iexists _; isplitr
    swap; · iexact H8
    ipureintro
    exact View.read_writes_eq_canon _ _ _ (rowRect_covers _)
  iexists _; isplitr
  swap; · iexact H9
  ipureintro
  exact View.read_writes_eq_canon _ _ _ (rowRect_covers _)

/-! ## The pipeline's proof data -/

/-- The proof data of this pipeline on core `c`: the windows' arrays as the region finds them; after the body each
    input's buffer still at its block and each output's at its row of the input blocks; the invariant the plain one
    (the core's other scoped buffers and its generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => rowRelu (iblk0 V c 0 t)
    | ⟨4, _⟩ => rowLowerRet (iblk0 V c 1 t) (iblk0 V c 2 t)
    | ⟨5, _⟩ => rowUpperRet (iblk0 V c 1 t) (iblk0 V c 2 t)
    | ⟨6, _⟩ => rowLowerW (iblk0 V c 2 t)
    | ⟨7, _⟩ => rowUpperW (iblk0 V c 1 t) (iblk0 V c 2 t)
    | ⟨8, _⟩ => rowLowerB (F := F)
    | ⟨9, _⟩ => rowUpperB (iblk0 V c 1 t) (iblk0 V c 2 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = rowRelu (iblk0 V c 0 t) := by dsimp only [dat0]
theorem after0_4 (c : Dev nD) (t : Fin cfg0.N) : (dat0 V c).after 4 t = rowLowerRet (iblk0 V c 1 t) (iblk0 V c 2 t) := by dsimp only [dat0]
theorem after0_5 (c : Dev nD) (t : Fin cfg0.N) : (dat0 V c).after 5 t = rowUpperRet (iblk0 V c 1 t) (iblk0 V c 2 t) := by dsimp only [dat0]
theorem after0_6 (c : Dev nD) (t : Fin cfg0.N) : (dat0 V c).after 6 t = rowLowerW (iblk0 V c 2 t) := by dsimp only [dat0]
theorem after0_7 (c : Dev nD) (t : Fin cfg0.N) : (dat0 V c).after 7 t = rowUpperW (iblk0 V c 1 t) (iblk0 V c 2 t) := by dsimp only [dat0]
theorem after0_8 (c : Dev nD) (t : Fin cfg0.N) : (dat0 V c).after 8 t = rowLowerB (F := F) := by dsimp only [dat0]
theorem after0_9 (c : Dev nD) (t : Fin cfg0.N) : (dat0 V c).after 9 t = rowUpperB (iblk0 V c 1 t) (iblk0 V c 2 t) := by dsimp only [dat0]

/-- Each input's staging buffer holds its block when the body starts. -/
theorem staged0_0 (c : Dev nD) (t : Fin cfg0.N) (d) : (dat0 V c).before 0 t d = iblk0 V c 0 t :=
  staged0_0_of V (dat0 V c) (A_eq0 V c 0) (after0_0 V c) t d
theorem staged0_1 (c : Dev nD) (t : Fin cfg0.N) (d) : (dat0 V c).before 1 t d = iblk0 V c 1 t :=
  staged0_1_of V (dat0 V c) (A_eq0 V c 1) (after0_1 V c) t d
theorem staged0_2 (c : Dev nD) (t : Fin cfg0.N) (d) : (dat0 V c).before 2 t d = iblk0 V c 2 t :=
  staged0_2_of V (dat0 V c) (A_eq0 V c 2) (after0_2 V c) t d

/-! ## The body obligation -/

/-- What the body is called with at point `t`: the invariant, the dues, and each window's current staging buffer at
    what the pipeline put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it must hand back: each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at a point: the input buffers hold their blocks, so the triple applies at those blocks; the invariant
    and the dues are not touched and pass through. -/
theorem body_at_point0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [staged0_0, staged0_1, staged0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (elementwise_body_triple c Set.univ (grid0.coords t) _ _ _ _ _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation: the above at every point, the ten windows conjoined one by one. -/
theorem body_obligation0 (c : Dev nD) : BodyObligation (dat0 (F := F) V c) (defs₀ (F := F)) Variants.none () Set.univ := fun t => by
  rw [bigSep_W0, bigSep_W0]
  exact body_at_point0 V c t

end Region0

end Cert.Kernel.Hand

end
-- ==== Proof.Kernel.Region1.lean ====
import proofs.«171835_j2800318677430_1_alg».proof.Proof.Gen.Kernel.Launch
import proofs.«171835_j2800318677430_1_alg».proof.Proof.Gen.Kernel.Skeleton
import proofs.«171835_j2800318677430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The tiled kernel that lays two rows out as diagonal matrices: its body at every grid point

The program's second kernel runs over a 16 x 16 grid of 512 x 512 tiles of two 8192 x 8192 matrices. At a
point (i, j) it is handed the i-th 512-long segment of each of two rows (windows 0 and 1) and a tile
buffer for each matrix (windows 2 and 3). Exactly one of two guards fires at every point:

* i = j: the tile receives, entry (r, c), the segment's entry c where r = c and the zero word elsewhere;
* i ≠ j: the tile receives the zero word everywhere.

This module states what each window's buffer holds after the body (`dat1`), proves that exactly one
guard fires (`cond_split`), runs the body under each guard, and assembles the per-point obligation
the pipeline rule asks for (`body_obligation1`). Everything is stated at an arbitrary valuation `V`
of the core's buffers on entry to the region.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`: the part of its array, as the region finds it, that the point's
    index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first row's segment sits in its staging buffer at every point, whether the point fetched it or
    kept the one of the point before (the segment's index is the tile row, which moves every 16 points). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the second row's segment. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 x 512 segment: the rectangle of the two loads. -/
abbrev segRect : Rect S1x512 := Rect.unit (s := S1x512) ![0, 0] S1x512.size inb_S1x512_S1x512_0_0
/-- The whole 512 x 512 tile: the rectangle of every store. -/
abbrev tileRect : Rect S512x512 := Rect.unit (s := S512x512) ![0, 0] S512x512.size inb_S512x512_S512x512_0_0

/-! ## What the body leaves in the two tile buffers -/

/-- On a tile of the block diagonal the first matrix's buffer ends as the segment selected onto the tile's
    own diagonal. -/
def tileDiagL (x : Vec F S1x512 .f32) : Vec F S512x512 .f32 := View.canon [⟨tileRect, k1_pay2 (View.ld x segRect)⟩]
/-- The same of the second matrix's. -/
def tileDiagU (x : Vec F S1x512 .f32) : Vec F S512x512 .f32 := View.canon [⟨tileRect, k1_pay3 (View.ld x segRect)⟩]
/-- Off the block diagonal the first matrix's buffer ends as the zero tile. -/
def tileZeroL : Vec F S512x512 .f32 := View.canon [⟨tileRect, k1_pay4 (F := F)⟩]
/-- The same of the second matrix's. -/
def tileZeroU : Vec F S512x512 .f32 := View.canon [⟨tileRect, k1_pay5 (F := F)⟩]

/-- One store through the whole-tile rectangle covers the tile. -/
theorem tile_cover (p0 : Vec F S512x512 .f32) (y : S512x512.Idx) :
    ∃ pc ∈ ([⟨tileRect, p0⟩] : List (View.Piece (Elt F) S512x512 .f32)), y ∈ pc.1.set :=
  View.cover_of_tiled [⟨tileRect, p0⟩] S512x512.size (by rfl) y

/-! ## Exactly one guard fires -/

/-- The two guards compare the same two coordinates, one for equality and one for difference: at every
    point one of them holds and the other fails. -/
theorem cond_split (i : grid1.Coords) :
    (k1_cond1 i = 1#1 ∧ ¬ k1_cond2 i = 1#1) ∨ (¬ k1_cond1 i = 1#1 ∧ k1_cond2 i = 1#1) := by
  unfold k1_cond1 k1_cond2
  dsimp only
  generalize BitVec.ofNat 32 (i 0).val = a
  generalize BitVec.ofNat 32 (i 1).val = b
  simp only [Scalar.cmpi, IntOp.cmpi, bne]
  cases (a == b) <;> decide

/-! ## The pipeline's proof data -/

/-- What the region's pipeline is told of the body: the arrays as the region finds them; after the body at
    point `t` each row segment still in its buffer, and each tile buffer at the diagonal tile of its segment
    where the point lies on the block diagonal, at the zero tile elsewhere; the invariant the scoped rest
    and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => if k1_cond1 (grid1.coords t) = 1#1 then tileDiagL (iblk1 V c 0 t) else tileZeroL
    | ⟨3, _⟩ => if k1_cond1 (grid1.coords t) = 1#1 then tileDiagU (iblk1 V c 1 t) else tileZeroU
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = if k1_cond1 (grid1.coords t) = 1#1 then tileDiagL (iblk1 V c 0 t) else tileZeroL := by dsimp only [dat1]
theorem after1_3 (c : Dev nD) (t : Fin cfg1.N) :
    (dat1 V c).after 3 t = if k1_cond1 (grid1.coords t) = 1#1 then tileDiagU (iblk1 V c 1 t) else tileZeroU := by dsimp only [dat1]

/-- Each row segment is in its staging buffer when the body starts, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## What the pipeline expects back, window by window

The row segments are never idle. A tile buffer is called idle where neither guard fires; since every
point writes its tile back, the pipeline expects the tile there too, so whichever way the idle test
evaluates, the buffer is owed at what the body leaves. -/

theorem leaves1_0 (c : Dev nD) (t : Fin cfg1.N) :
    (dat1 V c).leavesExact 0 t = owns (c : Thread nD τ) (st1_0 t) fullShare ((dat1 V c).after 0 t) := rfl
theorem leaves1_1 (c : Dev nD) (t : Fin cfg1.N) :
    (dat1 V c).leavesExact 1 t = owns (c : Thread nD τ) (st1_1 t) fullShare ((dat1 V c).after 1 t) := rfl
theorem leaves1_2 (c : Dev nD) (t : Fin cfg1.N) :
    (dat1 V c).leavesExact 2 t = owns (c : Thread nD τ) (st1_2 t) fullShare ((dat1 V c).after 2 t) := by
  unfold Dat.leavesExact
  cases cfg1.idle 2 (cfg1.grid.coords t)
  · rfl
  · dsimp only; rw [flush1_2 t]
theorem leaves1_3 (c : Dev nD) (t : Fin cfg1.N) :
    (dat1 V c).leavesExact 3 t = owns (c : Thread nD τ) (st1_3 t) fullShare ((dat1 V c).after 3 t) := by
  unfold Dat.leavesExact
  cases cfg1.idle 3 (cfg1.grid.coords t)
  · rfl
  · dsimp only; rw [flush1_3 t]

/-! ## The body under each guard -/

set_option maxHeartbeats 1000000 in
/-- On the block diagonal (the first guard holds, the second fails) the body reads the two segments, and
    overwrites each tile buffer, whatever it held, with the segment selected onto the tile's diagonal. -/
theorem sound_diag (c : Dev nD) (E : Set ℕ) (i : grid1.Coords) (h1 : k1_cond1 i = 1#1) (h2 : ¬ k1_cond2 i = 1#1)
    (arg2 : Memref sig .tc .vmem S1x512 .f32) (harg2 : arg2.IsWhole) (arg3 : Memref sig .tc .vmem S1x512 .f32) (harg3 : arg3.IsWhole)
    (arg4 : Memref sig .tc .vmem S512x512 .f32) (harg4 : arg4.IsWhole) (arg5 : Memref sig .tc .vmem S512x512 .f32) (harg5 : arg5.IsWhole)
    (x0 x1 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tileDiagL x0) ∗ owns (c : Thread nD τ) arg5 fullShare (tileDiagU x1)) -∗ K ⟨⟩))
      ⊢ wp frame (wpE (defs₀ (F := F)) Variants.none c none) E (cc1__diag_kernel i arg2 harg2 arg3 harg3 arg4 harg4 arg5 harg5) K := by
  simp only [cc1__diag_kernel_eq_skeleton]; unfold cc1__diag_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (tile_cover _)
  iexists _; isplitr
  swap; · iexact H3
  ipureintro
  exact View.read_writes_eq_canon _ _ _ (tile_cover _)

set_option maxHeartbeats 1000000 in
/-- Off the block diagonal (the first guard fails, the second holds) the body leaves the segments alone
    and overwrites each tile buffer with the zero tile. -/
theorem sound_off (c : Dev nD) (E : Set ℕ) (i : grid1.Coords) (h1 : ¬ k1_cond1 i = 1#1) (h2 : k1_cond2 i = 1#1)
    (arg2 : Memref sig .tc .vmem S1x512 .f32) (harg2 : arg2.IsWhole) (arg3 : Memref sig .tc .vmem S1x512 .f32) (harg3 : arg3.IsWhole)
    (arg4 : Memref sig .tc .vmem S512x512 .f32) (harg4 : arg4.IsWhole) (arg5 : Memref sig .tc .vmem S512x512 .f32) (harg5 : arg5.IsWhole)
    (x0 x1 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tileZeroL (F := F)) ∗ owns (c : Thread nD τ) arg5 fullShare (tileZeroU (F := F))) -∗ K ⟨⟩))
      ⊢ wp frame (wpE (defs₀ (F := F)) Variants.none c none) E (cc1__diag_kernel i arg2 harg2 arg3 harg3 arg4 harg4 arg5 harg5) K := by
  simp only [cc1__diag_kernel_eq_skeleton]; unfold cc1__diag_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (tile_cover _)
  iexists _; isplitr
  swap; · iexact H3
  ipureintro
  exact View.read_writes_eq_canon _ _ _ (tile_cover _)

/-! ## The body obligation, at a generic point -/

/-- What the body is called with at point `t`: the invariant, the core's debts, and each window's current
    staging buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same, each buffer at what the pipeline expects back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point. The segments' buffers hold their blocks; the point lies on the block diagonal
    or off it, and the matching run of the body leaves the tile buffers at what the proof data says for
    that case; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    leaves1_0, leaves1_1, leaves1_2, leaves1_3, after1_0, after1_1, after1_2, after1_3]
  rcases cond_split (grid1.coords t) with ⟨h1, h2⟩ | ⟨h1, h2⟩
  · rw [if_pos h1, if_pos h1]
    iintro ⟨HΦ, Ho, ⟨%d0, H0⟩, ⟨%d1, H1⟩, ⟨%d2, H2⟩, ⟨%d3, H3⟩⟩
    iapply (sound_diag c Set.univ (grid1.coords t) h1 h2 _ _ _ _ _ _ _ _ (iblk1 V c 0 t) (iblk1 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [if_neg h1, if_neg h1]
    iintro ⟨HΦ, Ho, ⟨%d0, H0⟩, ⟨%d1, H1⟩, ⟨%d2, H2⟩, ⟨%d3, H3⟩⟩
    iapply (sound_off c Set.univ (grid1.coords t) h1 h2 _ _ _ _ _ _ _ _ (iblk1 V c 0 t) (iblk1 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline rule's obligation on the body, at every point: its windows written out one by one. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Run.lean ====
/-
  The run of the two-stage program: stage 0 computes the seven rows from the three argument rows in one step,
  stage 1 tiles the two square matrices from two of those rows. Between the stages the core's unscoped buffers
  hold: at launch the memory; after stage 0 the same with stage 0's seven result arrays at what its one
  write-back leaves; after stage 1 the same with the two matrices at what its 256 write-backs leave. Each stage
  is entered from "every unscoped buffer at the boundary's contents, the generator register at some state,
  nothing owed" and left in the same form at the next boundary; the launch theorem for a list of stages then
  gives termination, and reading the last boundary against the final memory gives every result array by name
  and every argument unchanged.
-/
import proofs.«171835_j2800318677430_1_alg».proof.Proof.Kernel.Region0
import proofs.«171835_j2800318677430_1_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- Core `c`'s buffers at launch. -/
abbrev W0 : Dev nD → Valuation τ sig (Elt F) := fun c b => m ((c : Dev nD), b)
/-- The same read at the TensorCore's references: what stage 0 is entered from. -/
abbrev Va : (c : Dev nD) → (b : Ref sig .tc) → Buf (Elt F) ((c : Thread nD τ).loc b) := fun c b => W0 m c b
/-- After stage 0: its arrays at what its write-back leaves, every other buffer as at launch. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what stage 1 is entered from. -/
abbrev Vb : (c : Dev nD) → (b : Ref sig .tc) → Buf (Elt F) ((c : Thread nD τ).loc b) := fun c b => W1 m c b
theorem hF0 (c : Dev nD) (w : Fin cfg0.W) : (dat0 (Va m) c).arrAt w cfg0.N = Vb m c (Pipeline.arrRef spec0 w) :=
  (W1_arr m c w).symm
theorem hrest0 (c : Dev nD) : ∀ b, b ∉ Finset.univ.image (Pipeline.arrRef spec0) → Vb m c b = Va m c b :=
  fun b hb => W1_of_ne m c b fun w e => hb (Finset.mem_image.mpr ⟨w, Finset.mem_univ _, e⟩)

/-- After stage 1: its two matrices at what its write-backs leave, every other buffer as stage 0 left it. -/
def W2 (c : Dev nD) : Valuation τ sig (Elt F) :=
  Pipeline.withArrays spec1 c (W1 m c) fun w => (dat1 (Vb m) c).arrAt w cfg1.N
theorem W2_arr (c : Dev nD) (w : Fin cfg1.W) :
    W2 m c (Proc.devRef .tc (Pipeline.arrRef spec1 w)) = (dat1 (Vb m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vc : (c : Dev nD) → (b : Ref sig .tc) → Buf (Elt F) ((c : Thread nD τ).loc b) := fun c b => W2 m c b
theorem hF1 (c : Dev nD) (w : Fin cfg1.W) : (dat1 (Vb m) c).arrAt w cfg1.N = Vc m c (Pipeline.arrRef spec1 w) :=
  (W2_arr m c w).symm
theorem hrest1 (c : Dev nD) : ∀ b, b ∉ Finset.univ.image (Pipeline.arrRef spec1) → Vc m c b = Vb m c b :=
  fun b hb => W2_of_ne m c b fun w e => hb (Finset.mem_image.mpr ⟨w, Finset.mem_univ _, e⟩)

/-! ## What the last boundary holds, buffer by buffer -/

/-- An argument row that stage 0 reads through an input window (window `w`) ends as launched: stage 1 does not
    touch it, stage 0 never writes an input's array. -/
theorem W2_in (c : Dev nD) (w : Fin cfg0.W) (hw : (cfg0.win w).isOut = false) (hne : ∀ w', Pipeline.arrRef spec1 w' ≠ Pipeline.arrRef spec0 w) :
    W2 m c (Proc.devRef .tc (Pipeline.arrRef spec0 w)) = m ((c : Thread nD τ).loc (Pipeline.arrRef spec0 w)) :=
  calc W2 m c (Proc.devRef .tc (Pipeline.arrRef spec0 w))
    _ = W1 m c (Proc.devRef .tc (Pipeline.arrRef spec0 w)) := W2_of_ne m c _ hne
    _ = W0 m c (Proc.devRef .tc (Pipeline.arrRef spec0 w)) := (W1_arr m c w).trans (((dat0 (Va m) c).arrAt_in w hw _).trans (A_eq0 (Va m) c w))
    _ = m ((c : Thread nD τ).loc (Pipeline.arrRef spec0 w)) := rfl
theorem W2_main_arg0 (c : Dev nD) : W2 m c (Proc.devRef .tc main_arg0) = m ((c : Thread nD τ).loc main_arg0) := W2_in m c 0 rfl (by decide)
theorem W2_main_arg1 (c : Dev nD) : W2 m c (Proc.devRef .tc main_arg1) = m ((c : Thread nD τ).loc main_arg1) := W2_in m c 1 rfl (by decide)
theorem W2_main_arg2 (c : Dev nD) : W2 m c (Proc.devRef .tc main_arg2) = m ((c : Thread nD τ).loc main_arg2) := W2_in m c 2 rfl (by decide)
/-- The shape argument is no window's array of either stage. -/
theorem W2_main_arg3 (c : Dev nD) : W2 m c (Proc.devRef .tc main_arg3) = m ((c : Thread nD τ).loc main_arg3) :=
  (W2_of_ne m c main_arg3 (by decide)).trans ((W1_of_ne m c main_arg3 (by decide)).trans rfl)
/-- A result row of stage 0 (output window `w`) that stage 1 does not window ends at what stage 0 left. -/
theorem W2_row (c : Dev nD) (w : Fin cfg0.W) (hne : ∀ w', Pipeline.arrRef spec1 w' ≠ Pipeline.arrRef spec0 w) :
    W2 m c (Proc.devRef .tc (Pipeline.arrRef spec0 w)) = (dat0 (Va m) c).arrAt w cfg0.N :=
  (W2_of_ne m c _ hne).trans (W1_arr m c w)

/-! ## The proof data family and the thread state -/

abbrev adm : (p : Fin 2) → (pcfgs (F := F) p).Adm := fun p => (cfgs p).toPCfg_adm
/-- Every stage's proof data, each at its entry contents (a literal match on the stage). -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through both stages: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The stages as segments -/

set_option backward.isDefEq.respectTransparency.types false in
/-- Stage 0: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1: entered from every unscoped buffer at `W1`, left at `W2`, which the launch reads at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The two stages in order, and the launch -/

abbrev segs : List (Pipeline.Seg (pcfgs (F := F)) adm (pdats m) () defs₀ 𝒱₀ L lv) :=
  [ .region (reg0 m), .region (reg1 m) ]
/-- The program is the run of its two stages. -/
theorem main_run (c : Dev nD) : main (F := F) c = Pipeline.Seg.run (segs m) := (main_chain c).trans (by chain_rfl)

set_option backward.isDefEq.respectTransparency.types false in
/-- From any memory with zero counters every weakly fair execution of the program terminates, nothing faulting,
    and the final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run with every result array named and every argument unchanged: the seven rows at what stage 0's
    write-back leaves in windows 3, 4, 5, 8, 9 (and 6, 7, which feed stage 1), the two matrices at what stage 1's
    write-backs leave in its windows 2 and 3. -/
theorem run_named (ρ : Dev nD → PrngReg) : θ_run defs (onTc (τ := τ) (main (F := F))) ⟨m, fun _ => 0, ρ⟩ (fun r => ∀ c : Dev nD,
      (r.2.mem ((c.tc : Thread nD τ).loc main_v0_0) = (dat0 (Va m) c).arrAt 3 cfg0.N
      ∧ r.2.mem ((c.tc : Thread nD τ).loc main_v0_1) = (dat0 (Va m) c).arrAt 4 cfg0.N
      ∧ r.2.mem ((c.tc : Thread nD τ).loc main_v0_2) = (dat0 (Va m) c).arrAt 5 cfg0.N
      ∧ r.2.mem ((c.tc : Thread nD τ).loc main_v1_0) = (dat1 (Vb m) c).arrAt 2 cfg1.N
      ∧ r.2.mem ((c.tc : Thread nD τ).loc main_v1_1) = (dat1 (Vb m) c).arrAt 3 cfg1.N
      ∧ r.2.mem ((c.tc : Thread nD τ).loc main_v0_5) = (dat0 (Va m) c).arrAt 8 cfg0.N
      ∧ r.2.mem ((c.tc : Thread nD τ).loc main_v0_6) = (dat0 (Va m) c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨⟨(h c _ (mem_uc main_v0_0 (by decide))).trans (W2_row m c 3 (by decide)),
      (h c _ (mem_uc main_v0_1 (by decide))).trans (W2_row m c 4 (by decide)),
      (h c _ (mem_uc main_v0_2 (by decide))).trans (W2_row m c 5 (by decide)),
      (h c _ (mem_uc main_v1_0 (by decide))).trans (W2_arr m c 2),
      (h c _ (mem_uc main_v1_1 (by decide))).trans (W2_arr m c 3),
      (h c _ (mem_uc main_v0_5 (by decide))).trans (W2_row m c 8 (by decide)),
      (h c _ (mem_uc main_v0_6 (by decide))).trans (W2_row m c 9 (by decide))⟩,
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩)
    (run_all m ρ)

/-- The two rows stage 1 is entered with are what stage 0 left in its windows 6 and 7; its three argument rows
    are the launch memory's. -/
theorem Vb_lw (c : Dev nD) : Vb m c main_v0_3 = (dat0 (Va m) c).arrAt 6 cfg0.N := W1_arr m c 6
theorem Vb_uw (c : Dev nD) : Vb m c main_v0_4 = (dat0 (Va m) c).arrAt 7 cfg0.N := W1_arr m c 7

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c => (h c).2) (run_named m ρ)

end Cert.Kernel.Hand

end
-- ==== Proof.KernelIdeal.Region0.lean ====
import proofs.«171835_j2800318677430_1_alg».proof.Proof.Gen.KernelIdeal.Launch
import proofs.«171835_j2800318677430_1_alg».proof.Proof.Gen.KernelIdeal.Skeleton
import proofs.«171835_j2800318677430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The elementwise region: the ReLU relaxation's seven rows

The program's first stage runs its body once. Each of its ten windows is a whole `[1, 8192]` row: three inputs (the
pre-activation `x` and its bounds `lo ≤ x ≤ up`) and seven outputs. The body reads every input through the one
rectangle that is the whole row, computes each output row entry by entry from the inputs, and stores it through
the same rectangle. So what the body leaves in an output's buffer is a function of the three input rows alone,
whatever the buffer held before; this module names those seven functions, proves the body's triple against them,
and packages the result as the pipeline's proof data at ANY contents `V` of the core's buffers at entry.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the region is entered; everything below holds at any such contents
variable (V : (c : Dev nD) → (b : Ref sig .tc) → Buf (Elt F) ((c : Thread nD τ).loc b))

/-! ## The windows' blocks -/

/-- Window `w`'s block at point `t`: the part of its array, as the region finds it, that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (`x`): at every point the body finds its block in the staging buffer. The pipeline
    copies the block in where it fetches; where it does not, the block index has not moved since the last fetch
    and the body left the block in place (`hafter`), so the buffer still holds it. Stated for any proof data over
    the entry contents (`hA`). -/
theorem staged0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (`lo`): at every point the body finds its block in the staging buffer. The pipeline
    copies the block in where it fetches; where it does not, the block index has not moved since the last fetch
    and the body left the block in place (`hafter`), so the buffer still holds it. Stated for any proof data over
    the entry contents (`hA`). -/
theorem staged0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (`up`): at every point the body finds its block in the staging buffer. The pipeline
    copies the block in where it fetches; where it does not, the block index has not moved since the last fetch
    and the body left the block in place (`hafter`), so the buffer still holds it. Stated for any proof data over
    the entry contents (`hA`). -/
theorem staged0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one rectangle -/

/-- Every load and store of the body goes through the whole row: offsets zero, the row's own extents. -/
abbrev rowRect : Rect S1x8192 := Rect.unit (s := S1x8192) ![0, 0] S1x8192.size inb_S1x8192_S1x8192_0_0

/-- Its offsets are zero on both axes. -/
theorem rowRect_offsets : (![0, 0] : Fin 2 → Nat) = fun _ => 0 := funext fun a => by fin_cases a <;> rfl

/-- A single store through the whole row covers the row: every index lies in the rectangle. -/
theorem rowRect_covers (p : Vec F S1x8192 .f32) (y : S1x8192.Idx) :
    ∃ pc ∈ ([⟨rowRect, p⟩] : List (View.Piece (Elt F) S1x8192 .f32)), y ∈ pc.1.set :=
  ⟨_, List.mem_singleton_self _, View.mem_set_unit_zero rowRect_offsets inb_S1x8192_S1x8192_0_0 y⟩

/-! ## What the body leaves in each output row

Each is the contents a buffer holds after ONE store through the whole row of the named payload, the payload taken
of the input rows as loaded through the whole row. Entry by entry, with `neg := up ≤ 0` (the unit is dead),
`pos := lo ≥ 0` (the unit is the identity), `cross := ¬neg ∧ ¬pos` (the bounds straddle zero) and
`slope := up / (up - lo)` on `cross`, zero off it (the divisor is replaced by one off `cross`, so nothing divides
by a difference that may vanish), the seven rows are the ReLU of `x`, the two bounds it returns, the diagonals of
the lower and upper relaxations' weights, and their biases. -/

/-- Window 3. The ReLU of the input: `max x 0`. -/
def rowRelu (x : Vec F S1x8192 .f32) : Vec F S1x8192 .f32 :=
  View.canon [⟨rowRect, k0_pay8 (View.ld x rowRect)⟩]

/-- Window 4. The lower bound returned: zero on `neg`, `lo` elsewhere. -/
def rowLowerRet (lo : Vec F S1x8192 .f32) (up : Vec F S1x8192 .f32) : Vec F S1x8192 .f32 :=
  View.canon [⟨rowRect, k0_pay9 (View.ld lo rowRect) (View.ld up rowRect)⟩]

/-- Window 5. The upper bound returned: zero on `neg`, `up` on `pos`, `slope * up` on `cross`. -/
def rowUpperRet (lo : Vec F S1x8192 .f32) (up : Vec F S1x8192 .f32) : Vec F S1x8192 .f32 :=
  View.canon [⟨rowRect, k0_pay10 (View.ld lo rowRect) (View.ld up rowRect)⟩]

/-- Window 6. The diagonal of the lower relaxation's weight: zero on `neg`, one elsewhere. -/
def rowLowerW (up : Vec F S1x8192 .f32) : Vec F S1x8192 .f32 :=
  View.canon [⟨rowRect, k0_pay11 (View.ld up rowRect)⟩]

/-- Window 7. The diagonal of the upper relaxation's weight: zero on `neg`, one on `pos`, `slope` on `cross`. -/
def rowUpperW (lo : Vec F S1x8192 .f32) (up : Vec F S1x8192 .f32) : Vec F S1x8192 .f32 :=
  View.canon [⟨rowRect, k0_pay1 (k0_pay4 (View.ld up rowRect)) (k0_pay5 (View.ld lo rowRect)) (k0_pay7 (View.ld lo rowRect) (View.ld up rowRect))⟩]

/-- Window 8. The lower relaxation's bias: zero everywhere. -/
def rowLowerB : Vec F S1x8192 .f32 :=
  View.canon [⟨rowRect, k0_pay2 (F := F)⟩]

/-- Window 9. The upper relaxation's bias: `slope * lo` on `cross`, zero elsewhere. -/
def rowUpperB (lo : Vec F S1x8192 .f32) (up : Vec F S1x8192 .f32) : Vec F S1x8192 .f32 :=
  View.canon [⟨rowRect, k0_pay3 (View.ld lo rowRect) (k0_pay6 (View.ld lo rowRect) (View.ld up rowRect)) (k0_pay7 (View.ld lo rowRect) (View.ld up rowRect))⟩]

/-! ## The body's triple -/

set_option maxHeartbeats 1000000 in
/-- The body on ten whole staging memrefs: given the three inputs at contents read as `x`, `lo`, `up` and the seven
    outputs at anything, it runs to a state where the inputs are as they were and each output reads as its row above.
    The body is a straight line of loads and stores through the whole row, so the run is symbolic: each stored payload is
    read off the program, and one covering store determines the buffer whatever it held. -/
theorem elementwise_body_triple (c : Dev nD) (E : Set ℕ) (i : grid0.Coords) (arg1 : Memref sig .tc .vmem S1x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S1x8192 .f32) (harg10 : arg10.IsWhole)
    (x lo up : Vec F S1x8192 .f32) (K : PUnit → sProp 𝕄) :
    iprop(owns (c : Thread nD τ) arg1 fullShare x ∗ owns (c : Thread nD τ) arg2 fullShare lo ∗ owns (c : Thread nD τ) arg3 fullShare up
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare lo ∗ owns (c : Thread nD τ) arg3 fullShare up
            ∗ owns (c : Thread nD τ) arg4 fullShare (rowRelu x)
            ∗ owns (c : Thread nD τ) arg5 fullShare (rowLowerRet lo up)
            ∗ owns (c : Thread nD τ) arg6 fullShare (rowUpperRet lo up)
            ∗ owns (c : Thread nD τ) arg7 fullShare (rowLowerW up)
            ∗ owns (c : Thread nD τ) arg8 fullShare (rowUpperW lo up)
            ∗ owns (c : Thread nD τ) arg9 fullShare (rowLowerB (F := F))
            ∗ owns (c : Thread nD τ) arg10 fullShare (rowUpperB lo up)) -∗ K ⟨⟩))
      ⊢ wp frame (wpE (defs₀ (F := F)) Variants.none c none) E (cc0__elementwise_kernel i arg1 harg1 arg2 harg2 arg3 harg3 arg4 harg4 arg5 harg5 arg6 harg6 arg7 harg7 arg8 harg8 arg9 harg9 arg10 harg10) K := by
  simp only [cc0__elementwise_kernel_eq_skeleton]; unfold cc0__elementwise_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (rowRect_covers _)
  isplitl [H4]
  · iexists _; isplitr
    swap; · iexact H4
    ipureintro
    exact View.read_writes_eq_canon _ _ _ (rowRect_covers _)
  isplitl [H5]
  · iexists _; isplitr
    swap; · iexact H5
    ipureintro
    exact View.read_writes_eq_canon _ _ _ (rowRect_covers _)
  isplitl [H6]
  · iexists _; isplitr
    swap; · iexact H6
    ipureintro
    exact View.read_writes_eq_canon _ _ _ (rowRect_covers _)
  isplitl [H7]
  · iexists _; isplitr
    swap; · iexact H7
    ipureintro
    exact View.read_writes_eq_canon _ _ _ (rowRect_covers _)
  isplitl [H8]
  · iexists _; isplitr
    swap; · iexact H8
    ipureintro
    exact View.read_writes_eq_canon _ _ _ (rowRect_covers _)
  iexists _; isplitr
  swap; · iexact H9
  ipureintro
  exact View.read_writes_eq_canon _ _ _ (rowRect_covers _)

/-! ## The pipeline's proof data -/

/-- The proof data of this pipeline on core `c`: the windows' arrays as the region finds them; after the body each
    input's buffer still at its block and each output's at its row of the input blocks; the invariant the plain one
    (the core's other scoped buffers and its generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => rowRelu (iblk0 V c 0 t)
    | ⟨4, _⟩ => rowLowerRet (iblk0 V c 1 t) (iblk0 V c 2 t)
    | ⟨5, _⟩ => rowUpperRet (iblk0 V c 1 t) (iblk0 V c 2 t)
    | ⟨6, _⟩ => rowLowerW (iblk0 V c 2 t)
    | ⟨7, _⟩ => rowUpperW (iblk0 V c 1 t) (iblk0 V c 2 t)
    | ⟨8, _⟩ => rowLowerB (F := F)
    | ⟨9, _⟩ => rowUpperB (iblk0 V c 1 t) (iblk0 V c 2 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = rowRelu (iblk0 V c 0 t) := by dsimp only [dat0]
theorem after0_4 (c : Dev nD) (t : Fin cfg0.N) : (dat0 V c).after 4 t = rowLowerRet (iblk0 V c 1 t) (iblk0 V c 2 t) := by dsimp only [dat0]
theorem after0_5 (c : Dev nD) (t : Fin cfg0.N) : (dat0 V c).after 5 t = rowUpperRet (iblk0 V c 1 t) (iblk0 V c 2 t) := by dsimp only [dat0]
theorem after0_6 (c : Dev nD) (t : Fin cfg0.N) : (dat0 V c).after 6 t = rowLowerW (iblk0 V c 2 t) := by dsimp only [dat0]
theorem after0_7 (c : Dev nD) (t : Fin cfg0.N) : (dat0 V c).after 7 t = rowUpperW (iblk0 V c 1 t) (iblk0 V c 2 t) := by dsimp only [dat0]
theorem after0_8 (c : Dev nD) (t : Fin cfg0.N) : (dat0 V c).after 8 t = rowLowerB (F := F) := by dsimp only [dat0]
theorem after0_9 (c : Dev nD) (t : Fin cfg0.N) : (dat0 V c).after 9 t = rowUpperB (iblk0 V c 1 t) (iblk0 V c 2 t) := by dsimp only [dat0]

/-- Each input's staging buffer holds its block when the body starts. -/
theorem staged0_0 (c : Dev nD) (t : Fin cfg0.N) (d) : (dat0 V c).before 0 t d = iblk0 V c 0 t :=
  staged0_0_of V (dat0 V c) (A_eq0 V c 0) (after0_0 V c) t d
theorem staged0_1 (c : Dev nD) (t : Fin cfg0.N) (d) : (dat0 V c).before 1 t d = iblk0 V c 1 t :=
  staged0_1_of V (dat0 V c) (A_eq0 V c 1) (after0_1 V c) t d
theorem staged0_2 (c : Dev nD) (t : Fin cfg0.N) (d) : (dat0 V c).before 2 t d = iblk0 V c 2 t :=
  staged0_2_of V (dat0 V c) (A_eq0 V c 2) (after0_2 V c) t d

/-! ## The body obligation -/

/-- What the body is called with at point `t`: the invariant, the dues, and each window's current staging buffer at
    what the pipeline put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it must hand back: each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at a point: the input buffers hold their blocks, so the triple applies at those blocks; the invariant
    and the dues are not touched and pass through. -/
theorem body_at_point0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [staged0_0, staged0_1, staged0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (elementwise_body_triple c Set.univ (grid0.coords t) _ _ _ _ _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation: the above at every point, the ten windows conjoined one by one. -/
theorem body_obligation0 (c : Dev nD) : BodyObligation (dat0 (F := F) V c) (defs₀ (F := F)) Variants.none () Set.univ := fun t => by
  rw [bigSep_W0, bigSep_W0]
  exact body_at_point0 V c t

end Region0

end Cert.KernelIdeal.Hand

end
-- ==== Proof.KernelIdeal.Region1.lean ====
import proofs.«171835_j2800318677430_1_alg».proof.Proof.Gen.KernelIdeal.Launch
import proofs.«171835_j2800318677430_1_alg».proof.Proof.Gen.KernelIdeal.Skeleton
import proofs.«171835_j2800318677430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The tiled kernel that lays two rows out as diagonal matrices: its body at every grid point

The program's second kernel runs over a 16 x 16 grid of 512 x 512 tiles of two 8192 x 8192 matrices. At a
point (i, j) it is handed the i-th 512-long segment of each of two rows (windows 0 and 1) and a tile
buffer for each matrix (windows 2 and 3). Exactly one of two guards fires at every point:

* i = j: the tile receives, entry (r, c), the segment's entry c where r = c and the zero word elsewhere;
* i ≠ j: the tile receives the zero word everywhere.

This module states what each window's buffer holds after the body (`dat1`), proves that exactly one
guard fires (`cond_split`), runs the body under each guard, and assembles the per-point obligation
the pipeline rule asks for (`body_obligation1`). Everything is stated at an arbitrary valuation `V`
of the core's buffers on entry to the region.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`: the part of its array, as the region finds it, that the point's
    index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first row's segment sits in its staging buffer at every point, whether the point fetched it or
    kept the one of the point before (the segment's index is the tile row, which moves every 16 points). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the second row's segment. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 x 512 segment: the rectangle of the two loads. -/
abbrev segRect : Rect S1x512 := Rect.unit (s := S1x512) ![0, 0] S1x512.size inb_S1x512_S1x512_0_0
/-- The whole 512 x 512 tile: the rectangle of every store. -/
abbrev tileRect : Rect S512x512 := Rect.unit (s := S512x512) ![0, 0] S512x512.size inb_S512x512_S512x512_0_0

/-! ## What the body leaves in the two tile buffers -/

/-- On a tile of the block diagonal the first matrix's buffer ends as the segment selected onto the tile's
    own diagonal. -/
def tileDiagL (x : Vec F S1x512 .f32) : Vec F S512x512 .f32 := View.canon [⟨tileRect, k1_pay2 (View.ld x segRect)⟩]
/-- The same of the second matrix's. -/
def tileDiagU (x : Vec F S1x512 .f32) : Vec F S512x512 .f32 := View.canon [⟨tileRect, k1_pay3 (View.ld x segRect)⟩]
/-- Off the block diagonal the first matrix's buffer ends as the zero tile. -/
def tileZeroL : Vec F S512x512 .f32 := View.canon [⟨tileRect, k1_pay4 (F := F)⟩]
/-- The same of the second matrix's. -/
def tileZeroU : Vec F S512x512 .f32 := View.canon [⟨tileRect, k1_pay5 (F := F)⟩]

/-- One store through the whole-tile rectangle covers the tile. -/
theorem tile_cover (p0 : Vec F S512x512 .f32) (y : S512x512.Idx) :
    ∃ pc ∈ ([⟨tileRect, p0⟩] : List (View.Piece (Elt F) S512x512 .f32)), y ∈ pc.1.set :=
  View.cover_of_tiled [⟨tileRect, p0⟩] S512x512.size (by rfl) y

/-! ## Exactly one guard fires -/

/-- The two guards compare the same two coordinates, one for equality and one for difference: at every
    point one of them holds and the other fails. -/
theorem cond_split (i : grid1.Coords) :
    (k1_cond1 i = 1#1 ∧ ¬ k1_cond2 i = 1#1) ∨ (¬ k1_cond1 i = 1#1 ∧ k1_cond2 i = 1#1) := by
  unfold k1_cond1 k1_cond2
  dsimp only
  generalize BitVec.ofNat 32 (i 0).val = a
  generalize BitVec.ofNat 32 (i 1).val = b
  simp only [Scalar.cmpi, IntOp.cmpi, bne]
  cases (a == b) <;> decide

/-! ## The pipeline's proof data -/

/-- What the region's pipeline is told of the body: the arrays as the region finds them; after the body at
    point `t` each row segment still in its buffer, and each tile buffer at the diagonal tile of its segment
    where the point lies on the block diagonal, at the zero tile elsewhere; the invariant the scoped rest
    and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => if k1_cond1 (grid1.coords t) = 1#1 then tileDiagL (iblk1 V c 0 t) else tileZeroL
    | ⟨3, _⟩ => if k1_cond1 (grid1.coords t) = 1#1 then tileDiagU (iblk1 V c 1 t) else tileZeroU
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = if k1_cond1 (grid1.coords t) = 1#1 then tileDiagL (iblk1 V c 0 t) else tileZeroL := by dsimp only [dat1]
theorem after1_3 (c : Dev nD) (t : Fin cfg1.N) :
    (dat1 V c).after 3 t = if k1_cond1 (grid1.coords t) = 1#1 then tileDiagU (iblk1 V c 1 t) else tileZeroU := by dsimp only [dat1]

/-- Each row segment is in its staging buffer when the body starts, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## What the pipeline expects back, window by window

The row segments are never idle. A tile buffer is called idle where neither guard fires; since every
point writes its tile back, the pipeline expects the tile there too, so whichever way the idle test
evaluates, the buffer is owed at what the body leaves. -/

theorem leaves1_0 (c : Dev nD) (t : Fin cfg1.N) :
    (dat1 V c).leavesExact 0 t = owns (c : Thread nD τ) (st1_0 t) fullShare ((dat1 V c).after 0 t) := rfl
theorem leaves1_1 (c : Dev nD) (t : Fin cfg1.N) :
    (dat1 V c).leavesExact 1 t = owns (c : Thread nD τ) (st1_1 t) fullShare ((dat1 V c).after 1 t) := rfl
theorem leaves1_2 (c : Dev nD) (t : Fin cfg1.N) :
    (dat1 V c).leavesExact 2 t = owns (c : Thread nD τ) (st1_2 t) fullShare ((dat1 V c).after 2 t) := by
  unfold Dat.leavesExact
  cases cfg1.idle 2 (cfg1.grid.coords t)
  · rfl
  · dsimp only; rw [flush1_2 t]
theorem leaves1_3 (c : Dev nD) (t : Fin cfg1.N) :
    (dat1 V c).leavesExact 3 t = owns (c : Thread nD τ) (st1_3 t) fullShare ((dat1 V c).after 3 t) := by
  unfold Dat.leavesExact
  cases cfg1.idle 3 (cfg1.grid.coords t)
  · rfl
  · dsimp only; rw [flush1_3 t]

/-! ## The body under each guard -/

set_option maxHeartbeats 1000000 in
/-- On the block diagonal (the first guard holds, the second fails) the body reads the two segments, and
    overwrites each tile buffer, whatever it held, with the segment selected onto the tile's diagonal. -/
theorem sound_diag (c : Dev nD) (E : Set ℕ) (i : grid1.Coords) (h1 : k1_cond1 i = 1#1) (h2 : ¬ k1_cond2 i = 1#1)
    (arg2 : Memref sig .tc .vmem S1x512 .f32) (harg2 : arg2.IsWhole) (arg3 : Memref sig .tc .vmem S1x512 .f32) (harg3 : arg3.IsWhole)
    (arg4 : Memref sig .tc .vmem S512x512 .f32) (harg4 : arg4.IsWhole) (arg5 : Memref sig .tc .vmem S512x512 .f32) (harg5 : arg5.IsWhole)
    (x0 x1 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tileDiagL x0) ∗ owns (c : Thread nD τ) arg5 fullShare (tileDiagU x1)) -∗ K ⟨⟩))
      ⊢ wp frame (wpE (defs₀ (F := F)) Variants.none c none) E (cc1__diag_kernel i arg2 harg2 arg3 harg3 arg4 harg4 arg5 harg5) K := by
  simp only [cc1__diag_kernel_eq_skeleton]; unfold cc1__diag_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (tile_cover _)
  iexists _; isplitr
  swap; · iexact H3
  ipureintro
  exact View.read_writes_eq_canon _ _ _ (tile_cover _)

set_option maxHeartbeats 1000000 in
/-- Off the block diagonal (the first guard fails, the second holds) the body leaves the segments alone
    and overwrites each tile buffer with the zero tile. -/
theorem sound_off (c : Dev nD) (E : Set ℕ) (i : grid1.Coords) (h1 : ¬ k1_cond1 i = 1#1) (h2 : k1_cond2 i = 1#1)
    (arg2 : Memref sig .tc .vmem S1x512 .f32) (harg2 : arg2.IsWhole) (arg3 : Memref sig .tc .vmem S1x512 .f32) (harg3 : arg3.IsWhole)
    (arg4 : Memref sig .tc .vmem S512x512 .f32) (harg4 : arg4.IsWhole) (arg5 : Memref sig .tc .vmem S512x512 .f32) (harg5 : arg5.IsWhole)
    (x0 x1 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tileZeroL (F := F)) ∗ owns (c : Thread nD τ) arg5 fullShare (tileZeroU (F := F))) -∗ K ⟨⟩))
      ⊢ wp frame (wpE (defs₀ (F := F)) Variants.none c none) E (cc1__diag_kernel i arg2 harg2 arg3 harg3 arg4 harg4 arg5 harg5) K := by
  simp only [cc1__diag_kernel_eq_skeleton]; unfold cc1__diag_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (tile_cover _)
  iexists _; isplitr
  swap; · iexact H3
  ipureintro
  exact View.read_writes_eq_canon _ _ _ (tile_cover _)

/-! ## The body obligation, at a generic point -/

/-- What the body is called with at point `t`: the invariant, the core's debts, and each window's current
    staging buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same, each buffer at what the pipeline expects back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point. The segments' buffers hold their blocks; the point lies on the block diagonal
    or off it, and the matching run of the body leaves the tile buffers at what the proof data says for
    that case; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    leaves1_0, leaves1_1, leaves1_2, leaves1_3, after1_0, after1_1, after1_2, after1_3]
  rcases cond_split (grid1.coords t) with ⟨h1, h2⟩ | ⟨h1, h2⟩
  · rw [if_pos h1, if_pos h1]
    iintro ⟨HΦ, Ho, ⟨%d0, H0⟩, ⟨%d1, H1⟩, ⟨%d2, H2⟩, ⟨%d3, H3⟩⟩
    iapply (sound_diag c Set.univ (grid1.coords t) h1 h2 _ _ _ _ _ _ _ _ (iblk1 V c 0 t) (iblk1 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [if_neg h1, if_neg h1]
    iintro ⟨HΦ, Ho, ⟨%d0, H0⟩, ⟨%d1, H1⟩, ⟨%d2, H2⟩, ⟨%d3, H3⟩⟩
    iapply (sound_off c Set.univ (grid1.coords t) h1 h2 _ _ _ _ _ _ _ _ (iblk1 V c 0 t) (iblk1 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline rule's obligation on the body, at every point: its windows written out one by one. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Run.lean ====
/-
  The run of the two-stage program: stage 0 computes the seven rows from the three argument rows in one step,
  stage 1 tiles the two square matrices from two of those rows. Between the stages the core's unscoped buffers
  hold: at launch the memory; after stage 0 the same with stage 0's seven result arrays at what its one
  write-back leaves; after stage 1 the same with the two matrices at what its 256 write-backs leave. Each stage
  is entered from "every unscoped buffer at the boundary's contents, the generator register at some state,
  nothing owed" and left in the same form at the next boundary; the launch theorem for a list of stages then
  gives termination, and reading the last boundary against the final memory gives every result array by name
  and every argument unchanged.
-/
import proofs.«171835_j2800318677430_1_alg».proof.Proof.KernelIdeal.Region0
import proofs.«171835_j2800318677430_1_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- Core `c`'s buffers at launch. -/
abbrev W0 : Dev nD → Valuation τ sig (Elt F) := fun c b => m ((c : Dev nD), b)
/-- The same read at the TensorCore's references: what stage 0 is entered from. -/
abbrev Va : (c : Dev nD) → (b : Ref sig .tc) → Buf (Elt F) ((c : Thread nD τ).loc b) := fun c b => W0 m c b
/-- After stage 0: its arrays at what its write-back leaves, every other buffer as at launch. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what stage 1 is entered from. -/
abbrev Vb : (c : Dev nD) → (b : Ref sig .tc) → Buf (Elt F) ((c : Thread nD τ).loc b) := fun c b => W1 m c b
theorem hF0 (c : Dev nD) (w : Fin cfg0.W) : (dat0 (Va m) c).arrAt w cfg0.N = Vb m c (Pipeline.arrRef spec0 w) :=
  (W1_arr m c w).symm
theorem hrest0 (c : Dev nD) : ∀ b, b ∉ Finset.univ.image (Pipeline.arrRef spec0) → Vb m c b = Va m c b :=
  fun b hb => W1_of_ne m c b fun w e => hb (Finset.mem_image.mpr ⟨w, Finset.mem_univ _, e⟩)

/-- After stage 1: its two matrices at what its write-backs leave, every other buffer as stage 0 left it. -/
def W2 (c : Dev nD) : Valuation τ sig (Elt F) :=
  Pipeline.withArrays spec1 c (W1 m c) fun w => (dat1 (Vb m) c).arrAt w cfg1.N
theorem W2_arr (c : Dev nD) (w : Fin cfg1.W) :
    W2 m c (Proc.devRef .tc (Pipeline.arrRef spec1 w)) = (dat1 (Vb m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vc : (c : Dev nD) → (b : Ref sig .tc) → Buf (Elt F) ((c : Thread nD τ).loc b) := fun c b => W2 m c b
theorem hF1 (c : Dev nD) (w : Fin cfg1.W) : (dat1 (Vb m) c).arrAt w cfg1.N = Vc m c (Pipeline.arrRef spec1 w) :=
  (W2_arr m c w).symm
theorem hrest1 (c : Dev nD) : ∀ b, b ∉ Finset.univ.image (Pipeline.arrRef spec1) → Vc m c b = Vb m c b :=
  fun b hb => W2_of_ne m c b fun w e => hb (Finset.mem_image.mpr ⟨w, Finset.mem_univ _, e⟩)

/-! ## What the last boundary holds, buffer by buffer -/

/-- An argument row that stage 0 reads through an input window (window `w`) ends as launched: stage 1 does not
    touch it, stage 0 never writes an input's array. -/
theorem W2_in (c : Dev nD) (w : Fin cfg0.W) (hw : (cfg0.win w).isOut = false) (hne : ∀ w', Pipeline.arrRef spec1 w' ≠ Pipeline.arrRef spec0 w) :
    W2 m c (Proc.devRef .tc (Pipeline.arrRef spec0 w)) = m ((c : Thread nD τ).loc (Pipeline.arrRef spec0 w)) :=
  calc W2 m c (Proc.devRef .tc (Pipeline.arrRef spec0 w))
    _ = W1 m c (Proc.devRef .tc (Pipeline.arrRef spec0 w)) := W2_of_ne m c _ hne
    _ = W0 m c (Proc.devRef .tc (Pipeline.arrRef spec0 w)) := (W1_arr m c w).trans (((dat0 (Va m) c).arrAt_in w hw _).trans (A_eq0 (Va m) c w))
    _ = m ((c : Thread nD τ).loc (Pipeline.arrRef spec0 w)) := rfl
theorem W2_main_arg0 (c : Dev nD) : W2 m c (Proc.devRef .tc main_arg0) = m ((c : Thread nD τ).loc main_arg0) := W2_in m c 0 rfl (by decide)
theorem W2_main_arg1 (c : Dev nD) : W2 m c (Proc.devRef .tc main_arg1) = m ((c : Thread nD τ).loc main_arg1) := W2_in m c 1 rfl (by decide)
theorem W2_main_arg2 (c : Dev nD) : W2 m c (Proc.devRef .tc main_arg2) = m ((c : Thread nD τ).loc main_arg2) := W2_in m c 2 rfl (by decide)
/-- The shape argument is no window's array of either stage. -/
theorem W2_main_arg3 (c : Dev nD) : W2 m c (Proc.devRef .tc main_arg3) = m ((c : Thread nD τ).loc main_arg3) :=
  (W2_of_ne m c main_arg3 (by decide)).trans ((W1_of_ne m c main_arg3 (by decide)).trans rfl)
/-- A result row of stage 0 (output window `w`) that stage 1 does not window ends at what stage 0 left. -/
theorem W2_row (c : Dev nD) (w : Fin cfg0.W) (hne : ∀ w', Pipeline.arrRef spec1 w' ≠ Pipeline.arrRef spec0 w) :
    W2 m c (Proc.devRef .tc (Pipeline.arrRef spec0 w)) = (dat0 (Va m) c).arrAt w cfg0.N :=
  (W2_of_ne m c _ hne).trans (W1_arr m c w)

/-! ## The proof data family and the thread state -/

abbrev adm : (p : Fin 2) → (pcfgs (F := F) p).Adm := fun p => (cfgs p).toPCfg_adm
/-- Every stage's proof data, each at its entry contents (a literal match on the stage). -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through both stages: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The stages as segments -/

set_option backward.isDefEq.respectTransparency.types false in
/-- Stage 0: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1: entered from every unscoped buffer at `W1`, left at `W2`, which the launch reads at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The two stages in order, and the launch -/

abbrev segs : List (Pipeline.Seg (pcfgs (F := F)) adm (pdats m) () defs₀ 𝒱₀ L lv) :=
  [ .region (reg0 m), .region (reg1 m) ]
/-- The program is the run of its two stages. -/
theorem main_run (c : Dev nD) : main (F := F) c = Pipeline.Seg.run (segs m) := (main_chain c).trans (by chain_rfl)

set_option backward.isDefEq.respectTransparency.types false in
/-- From any memory with zero counters every weakly fair execution of the program terminates, nothing faulting,
    and the final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run with every result array named and every argument unchanged: the seven rows at what stage 0's
    write-back leaves in windows 3, 4, 5, 8, 9 (and 6, 7, which feed stage 1), the two matrices at what stage 1's
    write-backs leave in its windows 2 and 3. -/
theorem run_named (ρ : Dev nD → PrngReg) : θ_run defs (onTc (τ := τ) (main (F := F))) ⟨m, fun _ => 0, ρ⟩ (fun r => ∀ c : Dev nD,
      (r.2.mem ((c.tc : Thread nD τ).loc main_v0_0) = (dat0 (Va m) c).arrAt 3 cfg0.N
      ∧ r.2.mem ((c.tc : Thread nD τ).loc main_v0_1) = (dat0 (Va m) c).arrAt 4 cfg0.N
      ∧ r.2.mem ((c.tc : Thread nD τ).loc main_v0_2) = (dat0 (Va m) c).arrAt 5 cfg0.N
      ∧ r.2.mem ((c.tc : Thread nD τ).loc main_v1_0) = (dat1 (Vb m) c).arrAt 2 cfg1.N
      ∧ r.2.mem ((c.tc : Thread nD τ).loc main_v1_1) = (dat1 (Vb m) c).arrAt 3 cfg1.N
      ∧ r.2.mem ((c.tc : Thread nD τ).loc main_v0_5) = (dat0 (Va m) c).arrAt 8 cfg0.N
      ∧ r.2.mem ((c.tc : Thread nD τ).loc main_v0_6) = (dat0 (Va m) c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨⟨(h c _ (mem_uc main_v0_0 (by decide))).trans (W2_row m c 3 (by decide)),
      (h c _ (mem_uc main_v0_1 (by decide))).trans (W2_row m c 4 (by decide)),
      (h c _ (mem_uc main_v0_2 (by decide))).trans (W2_row m c 5 (by decide)),
      (h c _ (mem_uc main_v1_0 (by decide))).trans (W2_arr m c 2),
      (h c _ (mem_uc main_v1_1 (by decide))).trans (W2_arr m c 3),
      (h c _ (mem_uc main_v0_5 (by decide))).trans (W2_row m c 8 (by decide)),
      (h c _ (mem_uc main_v0_6 (by decide))).trans (W2_row m c 9 (by decide))⟩,
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩)
    (run_all m ρ)

/-- The two rows stage 1 is entered with are what stage 0 left in its windows 6 and 7; its three argument rows
    are the launch memory's. -/
theorem Vb_lw (c : Dev nD) : Vb m c main_v0_3 = (dat0 (Va m) c).arrAt 6 cfg0.N := W1_arr m c 6
theorem Vb_uw (c : Dev nD) : Vb m c main_v0_4 = (dat0 (Va m) c).arrAt 7 cfg0.N := W1_arr m c 7

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c => (h c).2) (run_named m ρ)

end Cert.KernelIdeal.Hand

end
-- ==== Proof.KernelIdeal.Value0.lean ====
import proofs.«171835_j2800318677430_1_alg».proof.Proof.KernelIdeal.Region0
import Idealize.ShloMosaic.Lib.Pipeline.Value

/-!
# The elementwise region's seven output arrays

The region's grid has one point, and at that point every window's block is its whole `[1, 8192]` array, sitting at
block index zero on both axes. So reading an array through the point's block gives the array back: an input block
IS the input array, and what the one write-back moves into an output array IS what the body left in the staging
buffer. Each output array after the region is therefore its row function (the body's payload) of the three input
ARRAYS as the region found them, with no reference to blocks, points or staging buffers.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Value0
variable (V : (c : Dev nD) → (b : Ref sig .tc) → Buf (Elt F) ((c : Thread nD τ).loc b))

/-! ## The one point's block is the whole array -/

/-- Window 0's block at the one point starts at offset zero on both axes. -/
theorem blockOffsets0_0 : (fun a => win0_0.index t0_0 a * main_arg0.ty.shape.size a) = fun _ => 0 := funext fun a => by fin_cases a <;> decide
/-- so a whole row read through it is the row. -/
theorem read_block0_0 (G : S1x8192.Idx → Elt F .f32) : ((cfg0.win 0).blk t0_0).view.read (Elt F) G = G :=
  Memref.read_access_unit_zero (Elt F) main_arg0 blockOffsets0_0 (fun a => by rw [congrFun blockOffsets0_0 a]; simp) G

/-- Window 1's block at the one point starts at offset zero on both axes. -/
theorem blockOffsets0_1 : (fun a => win0_1.index t0_0 a * main_arg1.ty.shape.size a) = fun _ => 0 := funext fun a => by fin_cases a <;> decide
/-- so a whole row read through it is the row. -/
theorem read_block0_1 (G : S1x8192.Idx → Elt F .f32) : ((cfg0.win 1).blk t0_0).view.read (Elt F) G = G :=
  Memref.read_access_unit_zero (Elt F) main_arg1 blockOffsets0_1 (fun a => by rw [congrFun blockOffsets0_1 a]; simp) G

/-- Window 2's block at the one point starts at offset zero on both axes. -/
theorem blockOffsets0_2 : (fun a => win0_2.index t0_0 a * main_arg2.ty.shape.size a) = fun _ => 0 := funext fun a => by fin_cases a <;> decide
/-- so a whole row read through it is the row. -/
theorem read_block0_2 (G : S1x8192.Idx → Elt F .f32) : ((cfg0.win 2).blk t0_0).view.read (Elt F) G = G :=
  Memref.read_access_unit_zero (Elt F) main_arg2 blockOffsets0_2 (fun a => by rw [congrFun blockOffsets0_2 a]; simp) G

/-- Window 3's block at the one point starts at offset zero on both axes. -/
theorem blockOffsets0_3 : (fun a => win0_3.index t0_0 a * main_v0_0.ty.shape.size a) = fun _ => 0 := funext fun a => by fin_cases a <;> decide
/-- so a whole row read through it is the row. -/
theorem read_block0_3 (G : S1x8192.Idx → Elt F .f32) : ((cfg0.win 3).blk t0_0).view.read (Elt F) G = G :=
  Memref.read_access_unit_zero (Elt F) main_v0_0 blockOffsets0_3 (fun a => by rw [congrFun blockOffsets0_3 a]; simp) G

/-- Window 4's block at the one point starts at offset zero on both axes. -/
theorem blockOffsets0_4 : (fun a => win0_4.index t0_0 a * main_v0_1.ty.shape.size a) = fun _ => 0 := funext fun a => by fin_cases a <;> decide
/-- so a whole row read through it is the row. -/
theorem read_block0_4 (G : S1x8192.Idx → Elt F .f32) : ((cfg0.win 4).blk t0_0).view.read (Elt F) G = G :=
  Memref.read_access_unit_zero (Elt F) main_v0_1 blockOffsets0_4 (fun a => by rw [congrFun blockOffsets0_4 a]; simp) G

/-- Window 5's block at the one point starts at offset zero on both axes. -/
theorem blockOffsets0_5 : (fun a => win0_5.index t0_0 a * main_v0_2.ty.shape.size a) = fun _ => 0 := funext fun a => by fin_cases a <;> decide
/-- so a whole row read through it is the row. -/
theorem read_block0_5 (G : S1x8192.Idx → Elt F .f32) : ((cfg0.win 5).blk t0_0).view.read (Elt F) G = G :=
  Memref.read_access_unit_zero (Elt F) main_v0_2 blockOffsets0_5 (fun a => by rw [congrFun blockOffsets0_5 a]; simp) G

/-- Window 6's block at the one point starts at offset zero on both axes. -/
theorem blockOffsets0_6 : (fun a => win0_6.index t0_0 a * main_v0_3.ty.shape.size a) = fun _ => 0 := funext fun a => by fin_cases a <;> decide
/-- so a whole row read through it is the row. -/
theorem read_block0_6 (G : S1x8192.Idx → Elt F .f32) : ((cfg0.win 6).blk t0_0).view.read (Elt F) G = G :=
  Memref.read_access_unit_zero (Elt F) main_v0_3 blockOffsets0_6 (fun a => by rw [congrFun blockOffsets0_6 a]; simp) G

/-- Window 7's block at the one point starts at offset zero on both axes. -/
theorem blockOffsets0_7 : (fun a => win0_7.index t0_0 a * main_v0_4.ty.shape.size a) = fun _ => 0 := funext fun a => by fin_cases a <;> decide
/-- so a whole row read through it is the row. -/
theorem read_block0_7 (G : S1x8192.Idx → Elt F .f32) : ((cfg0.win 7).blk t0_0).view.read (Elt F) G = G :=
  Memref.read_access_unit_zero (Elt F) main_v0_4 blockOffsets0_7 (fun a => by rw [congrFun blockOffsets0_7 a]; simp) G

/-- Window 8's block at the one point starts at offset zero on both axes. -/
theorem blockOffsets0_8 : (fun a => win0_8.index t0_0 a * main_v0_5.ty.shape.size a) = fun _ => 0 := funext fun a => by fin_cases a <;> decide
/-- so a whole row read through it is the row. -/
theorem read_block0_8 (G : S1x8192.Idx → Elt F .f32) : ((cfg0.win 8).blk t0_0).view.read (Elt F) G = G :=
  Memref.read_access_unit_zero (Elt F) main_v0_5 blockOffsets0_8 (fun a => by rw [congrFun blockOffsets0_8 a]; simp) G

/-- Window 9's block at the one point starts at offset zero on both axes. -/
theorem blockOffsets0_9 : (fun a => win0_9.index t0_0 a * main_v0_6.ty.shape.size a) = fun _ => 0 := funext fun a => by fin_cases a <;> decide
/-- so a whole row read through it is the row. -/
theorem read_block0_9 (G : S1x8192.Idx → Elt F .f32) : ((cfg0.win 9).blk t0_0).view.read (Elt F) G = G :=
  Memref.read_access_unit_zero (Elt F) main_v0_6 blockOffsets0_9 (fun a => by rw [congrFun blockOffsets0_9 a]; simp) G

/-! ## The input blocks are the input arrays -/

theorem iblk0_0_eq (c : Dev nD) : iblk0 V c 0 t0_0 = V c main_arg0 := by
  unfold iblk0; exact read_block0_0 _
theorem iblk0_1_eq (c : Dev nD) : iblk0 V c 1 t0_0 = V c main_arg1 := by
  unfold iblk0; exact read_block0_1 _
theorem iblk0_2_eq (c : Dev nD) : iblk0 V c 2 t0_0 = V c main_arg2 := by
  unfold iblk0; exact read_block0_2 _

/-! ## Each output array after the region

Per output window: what the point writes back is the payload of the input arrays, read through the point's block
(the body left one covering store of the payload of the input blocks, and those are the arrays); the point's block
covers the array; so the array ends holding the payload of the input arrays. -/

/-- Window 3: the write-back moves the ReLU of the input array. -/
theorem flushed0_3_eq (c : Dev nD) (t : Fin cfg0.N) :
    (dat0 V c).flushed 3 t = ((cfg0.win 3).blk t).view.read (Elt F) (k0_pay8 (V c main_arg0)) := by
  obtain rfl := fin_N0 t
  show (cfg0.win 3).cut (grid0.coords t0_0) ((dat0 V c).after 3 t0_0) = _
  rw [after0_3]
  unfold rowRelu
  rw [View.canon_unit_zero rowRect_offsets]
  simp only [View.ld_unit_zero (S := S1x8192) rowRect_offsets]
  rw [iblk0_0_eq]
  exact (read_block0_3 _).symm

/-- Every index of the array lies in the one point's block, which is written back. -/
theorem covers0_3 (i : S1x8192.Idx) : ∃ t : Fin cfg0.N, (cfg0.win 3).flush t = true ∧ i ∈ ((cfg0.win 3).blk t).view.set :=
  ⟨t0_0, flush0_3 t0_0, by
    show i ∈ ((View.whole main_v0_0).slice (win0_3.rect t0_0)).set
    rw [View.set_slice_whole]
    exact View.mem_set_unit_zero blockOffsets0_3 _ i⟩

/-- The array after the region. -/
theorem final0_3 (c : Dev nD) : (dat0 V c).arrAt 3 cfg0.N = k0_pay8 (V c main_arg0) :=
  (dat0 V c).arrAt_eq_of_cover 3 (k0_pay8 (V c main_arg0)) (fun t _ => flushed0_3_eq V c t) covers0_3

/-- Window 4: the write-back moves the returned lower bound of the two bound arrays. -/
theorem flushed0_4_eq (c : Dev nD) (t : Fin cfg0.N) :
    (dat0 V c).flushed 4 t = ((cfg0.win 4).blk t).view.read (Elt F) (k0_pay9 (V c main_arg1) (V c main_arg2)) := by
  obtain rfl := fin_N0 t
  show (cfg0.win 4).cut (grid0.coords t0_0) ((dat0 V c).after 4 t0_0) = _
  rw [after0_4]
  unfold rowLowerRet
  rw [View.canon_unit_zero rowRect_offsets]
  simp only [View.ld_unit_zero (S := S1x8192) rowRect_offsets]
  rw [iblk0_1_eq, iblk0_2_eq]
  exact (read_block0_4 _).symm

/-- Every index of the array lies in the one point's block, which is written back. -/
theorem covers0_4 (i : S1x8192.Idx) : ∃ t : Fin cfg0.N, (cfg0.win 4).flush t = true ∧ i ∈ ((cfg0.win 4).blk t).view.set :=
  ⟨t0_0, flush0_4 t0_0, by
    show i ∈ ((View.whole main_v0_1).slice (win0_4.rect t0_0)).set
    rw [View.set_slice_whole]
    exact View.mem_set_unit_zero blockOffsets0_4 _ i⟩

/-- The array after the region. -/
theorem final0_4 (c : Dev nD) : (dat0 V c).arrAt 4 cfg0.N = k0_pay9 (V c main_arg1) (V c main_arg2) :=
  (dat0 V c).arrAt_eq_of_cover 4 (k0_pay9 (V c main_arg1) (V c main_arg2)) (fun t _ => flushed0_4_eq V c t) covers0_4

/-- Window 5: the write-back moves the returned upper bound of the two bound arrays. -/
theorem flushed0_5_eq (c : Dev nD) (t : Fin cfg0.N) :
    (dat0 V c).flushed 5 t = ((cfg0.win 5).blk t).view.read (Elt F) (k0_pay10 (V c main_arg1) (V c main_arg2)) := by
  obtain rfl := fin_N0 t
  show (cfg0.win 5).cut (grid0.coords t0_0) ((dat0 V c).after 5 t0_0) = _
  rw [after0_5]
  unfold rowUpperRet
  rw [View.canon_unit_zero rowRect_offsets]
  simp only [View.ld_unit_zero (S := S1x8192) rowRect_offsets]
  rw [iblk0_1_eq, iblk0_2_eq]
  exact (read_block0_5 _).symm

/-- Every index of the array lies in the one point's block, which is written back. -/
theorem covers0_5 (i : S1x8192.Idx) : ∃ t : Fin cfg0.N, (cfg0.win 5).flush t = true ∧ i ∈ ((cfg0.win 5).blk t).view.set :=
  ⟨t0_0, flush0_5 t0_0, by
    show i ∈ ((View.whole main_v0_2).slice (win0_5.rect t0_0)).set
    rw [View.set_slice_whole]
    exact View.mem_set_unit_zero blockOffsets0_5 _ i⟩

/-- The array after the region. -/
theorem final0_5 (c : Dev nD) : (dat0 V c).arrAt 5 cfg0.N = k0_pay10 (V c main_arg1) (V c main_arg2) :=
  (dat0 V c).arrAt_eq_of_cover 5 (k0_pay10 (V c main_arg1) (V c main_arg2)) (fun t _ => flushed0_5_eq V c t) covers0_5

/-- Window 6: the write-back moves the lower relaxation's weight diagonal of the upper-bound array. -/
theorem flushed0_6_eq (c : Dev nD) (t : Fin cfg0.N) :
    (dat0 V c).flushed 6 t = ((cfg0.win 6).blk t).view.read (Elt F) (k0_pay11 (V c main_arg2)) := by
  obtain rfl := fin_N0 t
  show (cfg0.win 6).cut (grid0.coords t0_0) ((dat0 V c).after 6 t0_0) = _
  rw [after0_6]
  unfold rowLowerW
  rw [View.canon_unit_zero rowRect_offsets]
  simp only [View.ld_unit_zero (S := S1x8192) rowRect_offsets]
  rw [iblk0_2_eq]
  exact (read_block0_6 _).symm

/-- Every index of the array lies in the one point's block, which is written back. -/
theorem covers0_6 (i : S1x8192.Idx) : ∃ t : Fin cfg0.N, (cfg0.win 6).flush t = true ∧ i ∈ ((cfg0.win 6).blk t).view.set :=
  ⟨t0_0, flush0_6 t0_0, by
    show i ∈ ((View.whole main_v0_3).slice (win0_6.rect t0_0)).set
    rw [View.set_slice_whole]
    exact View.mem_set_unit_zero blockOffsets0_6 _ i⟩

/-- The array after the region. -/
theorem final0_6 (c : Dev nD) : (dat0 V c).arrAt 6 cfg0.N = k0_pay11 (V c main_arg2) :=
  (dat0 V c).arrAt_eq_of_cover 6 (k0_pay11 (V c main_arg2)) (fun t _ => flushed0_6_eq V c t) covers0_6

/-- Window 7: the write-back moves the upper relaxation's weight diagonal of the two bound arrays. -/
theorem flushed0_7_eq (c : Dev nD) (t : Fin cfg0.N) :
    (dat0 V c).flushed 7 t = ((cfg0.win 7).blk t).view.read (Elt F) (k0_pay1 (k0_pay4 (V c main_arg2)) (k0_pay5 (V c main_arg1)) (k0_pay7 (V c main_arg1) (V c main_arg2))) := by
  obtain rfl := fin_N0 t
  show (cfg0.win 7).cut (grid0.coords t0_0) ((dat0 V c).after 7 t0_0) = _
  rw [after0_7]
  unfold rowUpperW
  rw [View.canon_unit_zero rowRect_offsets]
  simp only [View.ld_unit_zero (S := S1x8192) rowRect_offsets]
  rw [iblk0_1_eq, iblk0_2_eq]
  exact (read_block0_7 _).symm

/-- Every index of the array lies in the one point's block, which is written back. -/
theorem covers0_7 (i : S1x8192.Idx) : ∃ t : Fin cfg0.N, (cfg0.win 7).flush t = true ∧ i ∈ ((cfg0.win 7).blk t).view.set :=
  ⟨t0_0, flush0_7 t0_0, by
    show i ∈ ((View.whole main_v0_4).slice (win0_7.rect t0_0)).set
    rw [View.set_slice_whole]
    exact View.mem_set_unit_zero blockOffsets0_7 _ i⟩

/-- The array after the region. -/
theorem final0_7 (c : Dev nD) : (dat0 V c).arrAt 7 cfg0.N = k0_pay1 (k0_pay4 (V c main_arg2)) (k0_pay5 (V c main_arg1)) (k0_pay7 (V c main_arg1) (V c main_arg2)) :=
  (dat0 V c).arrAt_eq_of_cover 7 (k0_pay1 (k0_pay4 (V c main_arg2)) (k0_pay5 (V c main_arg1)) (k0_pay7 (V c main_arg1) (V c main_arg2))) (fun t _ => flushed0_7_eq V c t) covers0_7

/-- Window 8: the write-back moves the zero row. -/
theorem flushed0_8_eq (c : Dev nD) (t : Fin cfg0.N) :
    (dat0 V c).flushed 8 t = ((cfg0.win 8).blk t).view.read (Elt F) (k0_pay2) := by
  obtain rfl := fin_N0 t
  show (cfg0.win 8).cut (grid0.coords t0_0) ((dat0 V c).after 8 t0_0) = _
  rw [after0_8]
  unfold rowLowerB
  rw [View.canon_unit_zero rowRect_offsets]
  exact (read_block0_8 _).symm

/-- Every index of the array lies in the one point's block, which is written back. -/
theorem covers0_8 (i : S1x8192.Idx) : ∃ t : Fin cfg0.N, (cfg0.win 8).flush t = true ∧ i ∈ ((cfg0.win 8).blk t).view.set :=
  ⟨t0_0, flush0_8 t0_0, by
    show i ∈ ((View.whole main_v0_5).slice (win0_8.rect t0_0)).set
    rw [View.set_slice_whole]
    exact View.mem_set_unit_zero blockOffsets0_8 _ i⟩

/-- The array after the region. -/
theorem final0_8 (c : Dev nD) : (dat0 V c).arrAt 8 cfg0.N = k0_pay2 :=
  (dat0 V c).arrAt_eq_of_cover 8 (k0_pay2) (fun t _ => flushed0_8_eq V c t) covers0_8

/-- Window 9: the write-back moves the upper relaxation's bias of the two bound arrays. -/
theorem flushed0_9_eq (c : Dev nD) (t : Fin cfg0.N) :
    (dat0 V c).flushed 9 t = ((cfg0.win 9).blk t).view.read (Elt F) (k0_pay3 (V c main_arg1) (k0_pay6 (V c main_arg1) (V c main_arg2)) (k0_pay7 (V c main_arg1) (V c main_arg2))) := by
  obtain rfl := fin_N0 t
  show (cfg0.win 9).cut (grid0.coords t0_0) ((dat0 V c).after 9 t0_0) = _
  rw [after0_9]
  unfold rowUpperB
  rw [View.canon_unit_zero rowRect_offsets]
  simp only [View.ld_unit_zero (S := S1x8192) rowRect_offsets]
  rw [iblk0_1_eq, iblk0_2_eq]
  exact (read_block0_9 _).symm

/-- Every index of the array lies in the one point's block, which is written back. -/
theorem covers0_9 (i : S1x8192.Idx) : ∃ t : Fin cfg0.N, (cfg0.win 9).flush t = true ∧ i ∈ ((cfg0.win 9).blk t).view.set :=
  ⟨t0_0, flush0_9 t0_0, by
    show i ∈ ((View.whole main_v0_6).slice (win0_9.rect t0_0)).set
    rw [View.set_slice_whole]
    exact View.mem_set_unit_zero blockOffsets0_9 _ i⟩

/-- The array after the region. -/
theorem final0_9 (c : Dev nD) : (dat0 V c).arrAt 9 cfg0.N = k0_pay3 (V c main_arg1) (k0_pay6 (V c main_arg1) (V c main_arg2)) (k0_pay7 (V c main_arg1) (V c main_arg2)) :=
  (dat0 V c).arrAt_eq_of_cover 9 (k0_pay3 (V c main_arg1) (k0_pay6 (V c main_arg1) (V c main_arg2)) (k0_pay7 (V c main_arg1) (V c main_arg2))) (fun t _ => flushed0_9_eq V c t) covers0_9

end Value0

end Cert.KernelIdeal.Hand

end
-- ==== Proof.Spec.lean ====
/-
  The one whole-array function both programs' square results are instances of: the 8192 × 8192 matrix that
  carries a row vector on its diagonal and the zero word everywhere else. The tiled kernel writes it tile by
  tile (a tile on the block diagonal selects the vector's segment onto its own diagonal, every other tile is
  zero); the reference builds it from two index grids compared entry by entry. Entry (r, c) is the vector's
  entry at c when r = c — which is also its entry at r — and zero otherwise.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The diagonal matrix of a row vector `v` of length 8192: `v` at column `c` on the diagonal, the zero word off it. -/
def diagOf (v : (⟨2, ![1, 8192]⟩ : Shape).Idx → F .f32) : (⟨2, ![8192, 8192]⟩ : Shape).Idx → F .f32 :=
  fun i => if (i 0).val = (i 1).val then v (ix2 (0 : Fin 1) (⟨(i 1).val, idx2_lt1 i⟩ : Fin 8192))
    else FloatOps.ofBits .f32 0x00000000#32

/-- On the diagonal the column's entry is the row's. -/
theorem diagOf_apply_row (v : (⟨2, ![1, 8192]⟩ : Shape).Idx → F .f32) (i : (⟨2, ![8192, 8192]⟩ : Shape).Idx) :
    diagOf v i = if (i 0).val = (i 1).val then v (ix2 (0 : Fin 1) (⟨(i 0).val, idx2_lt0 i⟩ : Fin 8192))
      else FloatOps.ofBits .f32 0x00000000#32 := by
  unfold diagOf
  by_cases h : (i 0).val = (i 1).val
  · rw [if_pos h, if_pos h]; congr 2; exact Fin.ext h.symm
  · rw [if_neg h, if_neg h]

end Cert.Spec

end
-- ==== Proof.KernelIdeal.Value1.lean ====
import proofs.«171835_j2800318677430_1_alg».proof.Proof.KernelIdeal.Region1
import proofs.«171835_j2800318677430_1_alg».proof.Proof.Spec
import Idealize.ShloMosaic.Lib.Pipeline.Value
import Idealize.ShloMosaic.Lib.ValueIdx

/-!
# The two square matrices after the tiled kernel: the diagonal matrices of the two rows

Every grid point writes its 512 x 512 tile back to the matrix. A tile on the block diagonal carries the
row's segment on its own diagonal and the zero word elsewhere; every other tile is zero. Read at a global
entry (R, C) with R = 512·I + r and C = 512·J + c this is: the row's entry C where R = C (which forces
I = J and r = c), the zero word elsewhere — the diagonal matrix of the row. The 256 tiles cover the matrix,
so after the last write-back the whole array is that matrix.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The tile the body stores, entry by entry -/

/-- The zero word, as the kernel's constant and as the specification's. -/
theorem zero_word : (Scalar.ofBits .f32 0x00000000#32 : F .f32) = FloatOps.ofBits .f32 0x00000000#32 := rfl

/-- Two coordinates below 512 are equal as 32-bit words exactly when they are equal. -/
theorem word_eq_iff (r c : Fin 512) : BitVec.ofNat 32 r.val = BitVec.ofNat 32 c.val ↔ r.val = c.val := by
  constructor
  · intro h
    have := congrArg BitVec.toNat h
    simp only [BitVec.toNat_ofNat] at this
    have hr := r.isLt; have hc := c.isLt
    omega
  · intro h; rw [h]

/-- The mask of the tile's own diagonal: row coordinate equal to column coordinate. -/
theorem mask_apply (r c : Fin 512) : (k1_pay1 (ix2 r c) = 1#1) ↔ r.val = c.val := by
  unfold k1_pay1
  dsimp only
  show IntOp.cmpi .eq (iota .tc S512x512 32 [0] iota_S512x512_d0_w32 (ix2 r c)) (iota .tc S512x512 32 [1] iota_S512x512_d1_w32 (ix2 r c)) = 1#1 ↔ _
  rw [iota_single_apply, iota_single_apply, IntOp.cmpi_eq]
  exact word_eq_iff r c

/-- The segment spread down the tile's rows: entry (r, c) is the segment's entry c. -/
theorem spread_apply (x : Vec F S1x512 .f32) (r c : Fin 512) :
    broadcastTo S512x512 (shapeCast S1x512 (shapeCast S1x512 x shapeCasts_S1x512_S1x512) shapeCasts_S1x512_S1x512) broadcasts_S1x512_S512x512 (ix2 r c)
      = x (ix2 (0 : Fin 1) c) := by
  rw [shapeCast_self, shapeCast_self]
  refine broadcastTo_apply x broadcasts_S1x512_S512x512 (ix2 r c) (ix2 (0 : Fin 1) c) ?_
  intro a
  match a with
  | ⟨0, _⟩ => rfl
  | ⟨1, _⟩ => rfl

/-- The first matrix's tile on the block diagonal, entry by entry. -/
theorem pay2_apply (x : Vec F S1x512 .f32) (r c : Fin 512) :
    k1_pay2 x (ix2 r c) = if r.val = c.val then x (ix2 (0 : Fin 1) c) else FloatOps.ofBits .f32 0x00000000#32 := by
  unfold k1_pay2
  rw [select_apply, spread_apply, broadcast_apply]
  unfold Scalar.select
  by_cases h : r.val = c.val
  · exact (if_pos ((mask_apply r c).mpr h)).trans (if_pos h).symm
  · exact (if_neg (fun e => h ((mask_apply r c).mp e))).trans (if_neg h).symm

/-- The second matrix's, the same. -/
theorem pay3_apply (x : Vec F S1x512 .f32) (r c : Fin 512) :
    k1_pay3 x (ix2 r c) = if r.val = c.val then x (ix2 (0 : Fin 1) c) else FloatOps.ofBits .f32 0x00000000#32 := by
  unfold k1_pay3
  rw [select_apply, spread_apply, broadcast_apply]
  unfold Scalar.select
  by_cases h : r.val = c.val
  · exact (if_pos ((mask_apply r c).mpr h)).trans (if_pos h).symm
  · exact (if_neg (fun e => h ((mask_apply r c).mp e))).trans (if_neg h).symm

/-- Off the block diagonal both tiles are the zero word at every entry. -/
theorem pay4_apply (j : S512x512.Idx) : k1_pay4 (F := F) j = FloatOps.ofBits .f32 0x00000000#32 := rfl
theorem pay5_apply (j : S512x512.Idx) : k1_pay5 (F := F) j = FloatOps.ofBits .f32 0x00000000#32 := rfl

/-- The same two lemmas over an index of the tile taken whole. -/
theorem pay2_at (x : Vec F S1x512 .f32) (j : S512x512.Idx) :
    k1_pay2 x j = if (j 0).val = (j 1).val then x (ix2 (0 : Fin 1) (j 1)) else FloatOps.ofBits .f32 0x00000000#32 := by
  obtain ⟨r, c, rfl⟩ : ∃ (r c : Fin 512), j = ix2 r c := ⟨j 0, j 1, eq_ix2 j⟩
  exact pay2_apply x r c
theorem pay3_at (x : Vec F S1x512 .f32) (j : S512x512.Idx) :
    k1_pay3 x j = if (j 0).val = (j 1).val then x (ix2 (0 : Fin 1) (j 1)) else FloatOps.ofBits .f32 0x00000000#32 := by
  obtain ⟨r, c, rfl⟩ : ∃ (r c : Fin 512), j = ix2 r c := ⟨j 0, j 1, eq_ix2 j⟩
  exact pay3_apply x r c

/-! ## Where each point's blocks sit -/

/-- The zero offsets of a whole-buffer access, as a constant function. -/
theorem hz : (![0, 0] : Fin 2 → Nat) = fun _ => 0 := funext fun a => by fin_cases a <;> rfl

/-- The index maps, decided once over the 256 points: point `t` is tile (t / 16, t % 16) of either matrix
    and reads segment t / 16 of either row; it lies on the block diagonal exactly when the first guard holds. -/
theorem idx_facts : ∀ t : Fin cfg1.N,
    win1_2.index t (0 : Fin 2) = t.val / 16 ∧ win1_2.index t (1 : Fin 2) = t.val % 16
    ∧ win1_3.index t (0 : Fin 2) = t.val / 16 ∧ win1_3.index t (1 : Fin 2) = t.val % 16
    ∧ win1_0.index t (0 : Fin 2) = 0 ∧ win1_0.index t (1 : Fin 2) = t.val / 16
    ∧ win1_1.index t (0 : Fin 2) = 0 ∧ win1_1.index t (1 : Fin 2) = t.val / 16
    ∧ (k1_cond1 (grid1.coords t) = 1#1 ↔ t.val / 16 = t.val % 16) :=
  (by decide +kernel : ∀ t : Fin grid1.N, _)

/-! ## A tile's entry against the diagonal matrix's -/

/-- On a tile (I, I) of the block diagonal: the segment selected onto the tile's diagonal is, at local
    entry (r, c) sitting at global (512·I + r, 512·I + c), the diagonal matrix's entry — the two are on the
    global diagonal together, and the segment's entry c is the row's entry 512·I + c. -/
theorem diag_entry (v : S1x8192.Idx → Elt F .f32) (x : Vec F S1x512 .f32) (I : Nat)
    (hx : ∀ (q : Fin 512) (k : S1x8192.Idx), (k 0).val = 0 → (k 1).val = I * 512 + q.val → x (ix2 (0 : Fin 1) q) = v k)
    (j : S512x512.Idx) (i : S8192x8192.Idx)
    (h0 : (i 0).val = I * 512 + (j 0).val) (h1 : (i 1).val = I * 512 + (j 1).val) :
    (if (j 0).val = (j 1).val then x (ix2 (0 : Fin 1) (j 1)) else FloatOps.ofBits .f32 0x00000000#32)
      = Cert.Spec.diagOf v i := by
  unfold Cert.Spec.diagOf
  by_cases h : (j 0).val = (j 1).val
  · rw [if_pos h, if_pos (show (i 0).val = (i 1).val by omega)]
    exact hx (j 1) _ rfl h1
  · rw [if_neg h, if_neg (show ¬ (i 0).val = (i 1).val by omega)]

/-- On a tile (I, J) with I ≠ J no entry is on the global diagonal: the diagonal matrix is zero there. -/
theorem off_entry (v : S1x8192.Idx → Elt F .f32) (I J : Nat) (hIJ : I ≠ J)
    (j : S512x512.Idx) (i : S8192x8192.Idx)
    (h0 : (i 0).val = I * 512 + (j 0).val) (h1 : (i 1).val = J * 512 + (j 1).val) :
    (FloatOps.ofBits .f32 0x00000000#32 : F .f32) = Cert.Spec.diagOf v i := by
  have hj0 : (j 0).val < 512 := (j 0).isLt
  have hj1 : (j 1).val < 512 := (j 1).isLt
  unfold Cert.Spec.diagOf
  rw [if_neg (show ¬ (i 0).val = (i 1).val by omega)]

/-! ## The tiles cover the matrices -/

/-- An entry of the first matrix is in point `t`'s tile iff each coordinate is in the tile's range on its axis. -/
theorem mem_tile2 (t : Fin cfg1.N) (i : S8192x8192.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v1_0).slice (win1_2.rect t)).set ↔ _
  rw [View.set_slice_whole, Rect.mem_set_unit]
  exact Iff.rfl

/-- The same of the second matrix. -/
theorem mem_tile3 (t : Fin cfg1.N) (i : S8192x8192.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v1_1).slice (win1_3.rect t)).set ↔ _
  rw [View.set_slice_whole, Rect.mem_set_unit]
  exact Iff.rfl

/-- The point whose tile holds entry (R, C): tile row R / 512, tile column C / 512. -/
def tileOf (i : S8192x8192.Idx) : Fin cfg1.N :=
  ⟨16 * ((i 0).val / 512) + (i 1).val / 512, by
    have hi0 : (i 0).val < 8192 := (i 0).isLt
    have hi1 : (i 1).val < 8192 := (i 1).isLt
    rw [show cfg1.N = 256 from N_1]; omega⟩

theorem tileOf_val (i : S8192x8192.Idx) : (tileOf i).val = 16 * ((i 0).val / 512) + (i 1).val / 512 := rfl

/-- Every entry of the first matrix is in the tile of a point, and every point writes its tile back. -/
theorem cover2 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨e0, e1, -⟩ := idx_facts (tileOf i)
  have tv := tileOf_val i
  refine ⟨tileOf i, flush1_2 (tileOf i), ?_⟩
  rw [mem_tile2]
  intro a
  match a with
  | ⟨0, _⟩ =>
    show win1_2.index (tileOf i) (0 : Fin 2) * 512 ≤ (i 0).val ∧ (i 0).val < win1_2.index (tileOf i) (0 : Fin 2) * 512 + 512
    omega
  | ⟨1, _⟩ =>
    show win1_2.index (tileOf i) (1 : Fin 2) * 512 ≤ (i 1).val ∧ (i 1).val < win1_2.index (tileOf i) (1 : Fin 2) * 512 + 512
    omega

/-- The same of the second matrix. -/
theorem cover3 (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨-, -, e0, e1, -⟩ := idx_facts (tileOf i)
  have tv := tileOf_val i
  refine ⟨tileOf i, flush1_3 (tileOf i), ?_⟩
  rw [mem_tile3]
  intro a
  match a with
  | ⟨0, _⟩ =>
    show win1_3.index (tileOf i) (0 : Fin 2) * 512 ≤ (i 0).val ∧ (i 0).val < win1_3.index (tileOf i) (0 : Fin 2) * 512 + 512
    omega
  | ⟨1, _⟩ =>
    show win1_3.index (tileOf i) (1 : Fin 2) * 512 ≤ (i 1).val ∧ (i 1).val < win1_3.index (tileOf i) (1 : Fin 2) * 512 + 512
    omega

section Value1
variable (V : (c : Dev nD) → (b : Ref sig .tc) → Buf (Elt F) ((c : Thread nD τ).loc b))

/-- A segment's entry is the row's entry at the segment's offset: over any row `v`, point `t`'s block of
    window 0 read at column `c` is `v` at column (t / 16)·512 + c. -/
theorem seg0_apply (c : Dev nD) (t : Fin cfg1.N) (q : Fin 512) (k : S1x8192.Idx)
    (hk0 : (k 0).val = 0) (hk1 : (k 1).val = t.val / 16 * 512 + q.val) :
    iblk1 V c 0 t (ix2 (0 : Fin 1) q) = V c main_v0_3 k := by
  obtain ⟨-, -, -, -, e0, e1, -⟩ := idx_facts t
  show V c main_v0_3 (((cfg1.win 0).blk t).view.emb (ix2 (0 : Fin 1) q)) = V c main_v0_3 k
  refine congrArg (V c main_v0_3) ?_
  funext a; apply Fin.ext
  match a with
  | ⟨0, _⟩ => show win1_0.index t (0 : Fin 2) * 1 + 1 * 0 = (k 0).val; omega
  | ⟨1, _⟩ => show win1_0.index t (1 : Fin 2) * 512 + 1 * q.val = (k 1).val; omega

/-- The same of the second row. -/
theorem seg1_apply (c : Dev nD) (t : Fin cfg1.N) (q : Fin 512) (k : S1x8192.Idx)
    (hk0 : (k 0).val = 0) (hk1 : (k 1).val = t.val / 16 * 512 + q.val) :
    iblk1 V c 1 t (ix2 (0 : Fin 1) q) = V c main_v0_4 k := by
  obtain ⟨-, -, -, -, -, -, e0, e1, -⟩ := idx_facts t
  show V c main_v0_4 (((cfg1.win 1).blk t).view.emb (ix2 (0 : Fin 1) q)) = V c main_v0_4 k
  refine congrArg (V c main_v0_4) ?_
  funext a; apply Fin.ext
  match a with
  | ⟨0, _⟩ => show win1_1.index t (0 : Fin 2) * 1 + 1 * 0 = (k 0).val; omega
  | ⟨1, _⟩ => show win1_1.index t (1 : Fin 2) * 512 + 1 * q.val = (k 1).val; omega

/-! ## What each point writes back -/

/-- Point `t` writes back to the first matrix its tile of the first row's diagonal matrix. -/
theorem flushed1_2_eq (c : Dev nD) (t : Fin cfg1.N) :
    (dat1 V c).flushed 2 t = ((cfg1.win 2).blk t).view.read (Elt F) (Cert.Spec.diagOf (V c main_v0_3)) := by
  show (cfg1.win 2).cut (grid1.coords t) ((dat1 V c).after 2 t) = _
  rw [after1_2]
  obtain ⟨e0, e1, -, -, -, -, -, -, ec⟩ := idx_facts t
  funext j
  show _ = Cert.Spec.diagOf (V c main_v0_3) (((cfg1.win 2).blk t).view.emb j)
  have r0 : ((((cfg1.win 2).blk t).view.emb j) 0).val = t.val / 16 * 512 + (j 0).val := by
    show win1_2.index t (0 : Fin 2) * 512 + 1 * (j 0).val = _; omega
  have r1 : ((((cfg1.win 2).blk t).view.emb j) 1).val = t.val % 16 * 512 + (j 1).val := by
    show win1_2.index t (1 : Fin 2) * 512 + 1 * (j 1).val = _; omega
  by_cases h1 : k1_cond1 (grid1.coords t) = 1#1
  · have hd : t.val / 16 = t.val % 16 := ec.mp h1
    rw [if_pos h1]
    unfold tileDiagL
    rw [View.canon_unit_zero hz]
    simp only [View.ld_unit_zero (S := S1x512) hz]
    show k1_pay2 (iblk1 V c 0 t) ((cfg1.win 2).xinj (grid1.coords t) j) = _
    refine (pay2_at (iblk1 V c 0 t) ((cfg1.win 2).xinj (grid1.coords t) j)).trans ?_
    exact diag_entry (V c main_v0_3) (iblk1 V c 0 t) (t.val / 16) (fun q k hk0 hk1 => seg0_apply V c t q k hk0 hk1)
      ((cfg1.win 2).xinj (grid1.coords t) j) (((cfg1.win 2).blk t).view.emb j) r0 (by rw [hd]; exact r1)
  · have hd : t.val / 16 ≠ t.val % 16 := fun e => h1 (ec.mpr e)
    rw [if_neg h1]
    unfold tileZeroL
    rw [View.canon_unit_zero hz]
    show (FloatOps.ofBits .f32 0x00000000#32 : F .f32) = _
    exact off_entry (V c main_v0_3) (t.val / 16) (t.val % 16) hd
      ((cfg1.win 2).xinj (grid1.coords t) j) (((cfg1.win 2).blk t).view.emb j) r0 r1

/-- Point `t` writes back to the second matrix its tile of the second row's diagonal matrix. -/
theorem flushed1_3_eq (c : Dev nD) (t : Fin cfg1.N) :
    (dat1 V c).flushed 3 t = ((cfg1.win 3).blk t).view.read (Elt F) (Cert.Spec.diagOf (V c main_v0_4)) := by
  show (cfg1.win 3).cut (grid1.coords t) ((dat1 V c).after 3 t) = _
  rw [after1_3]
  obtain ⟨-, -, e0, e1, -, -, -, -, ec⟩ := idx_facts t
  funext j
  show _ = Cert.Spec.diagOf (V c main_v0_4) (((cfg1.win 3).blk t).view.emb j)
  have r0 : ((((cfg1.win 3).blk t).view.emb j) 0).val = t.val / 16 * 512 + (j 0).val := by
    show win1_3.index t (0 : Fin 2) * 512 + 1 * (j 0).val = _; omega
  have r1 : ((((cfg1.win 3).blk t).view.emb j) 1).val = t.val % 16 * 512 + (j 1).val := by
    show win1_3.index t (1 : Fin 2) * 512 + 1 * (j 1).val = _; omega
  by_cases h1 : k1_cond1 (grid1.coords t) = 1#1
  · have hd : t.val / 16 = t.val % 16 := ec.mp h1
    rw [if_pos h1]
    unfold tileDiagU
    rw [View.canon_unit_zero hz]
    simp only [View.ld_unit_zero (S := S1x512) hz]
    show k1_pay3 (iblk1 V c 1 t) ((cfg1.win 3).xinj (grid1.coords t) j) = _
    refine (pay3_at (iblk1 V c 1 t) ((cfg1.win 3).xinj (grid1.coords t) j)).trans ?_
    exact diag_entry (V c main_v0_4) (iblk1 V c 1 t) (t.val / 16) (fun q k hk0 hk1 => seg1_apply V c t q k hk0 hk1)
      ((cfg1.win 3).xinj (grid1.coords t) j) (((cfg1.win 3).blk t).view.emb j) r0 (by rw [hd]; exact r1)
  · have hd : t.val / 16 ≠ t.val % 16 := fun e => h1 (ec.mpr e)
    rw [if_neg h1]
    unfold tileZeroU
    rw [View.canon_unit_zero hz]
    show (FloatOps.ofBits .f32 0x00000000#32 : F .f32) = _
    exact off_entry (V c main_v0_4) (t.val / 16) (t.val % 16) hd
      ((cfg1.win 3).xinj (grid1.coords t) j) (((cfg1.win 3).blk t).view.emb j) r0 r1

/-! ## The two matrices after the region -/

/-- After the 256 write-backs the first matrix is the diagonal matrix of the first row. -/
theorem final1_2 (c : Dev nD) : (dat1 V c).arrAt 2 cfg1.N = Cert.Spec.diagOf (V c main_v0_3) :=
  (dat1 V c).arrAt_eq_of_cover 2 (Cert.Spec.diagOf (V c main_v0_3)) (fun t _ => flushed1_2_eq V c t) cover2

/-- And the second matrix the diagonal matrix of the second row. -/
theorem final1_3 (c : Dev nD) : (dat1 V c).arrAt 3 cfg1.N = Cert.Spec.diagOf (V c main_v0_4) :=
  (dat1 V c).arrAt_eq_of_cover 3 (Cert.Spec.diagOf (V c main_v0_4)) (fun t _ => flushed1_3_eq V c t) cover3

end Value1

end Cert.KernelIdeal.Hand

end
-- ==== Proof.RefRun.lean ====
/-
  The reference's run, read back. The reference computes, from a row `x` and the two bound rows `lower`,
  `upper` (each of length 8192), the linear relaxation of a ReLU layer: three sign masks of the bounds
  (upper ≤ 0, lower ≥ 0, and neither), the crossing slope upper / (upper − lower) where the bounds straddle
  zero, seven result rows selected from those, and the two 8192 × 8192 matrices that carry the lower and
  upper slope rows on their diagonals. Its program is a straight line of 78 host operations once every call
  of a module-local function is read as the callee's operations on that call's own buffers; each result
  buffer then ends at the composition of those operations applied to the argument buffers' launch contents,
  and the arguments are unchanged. The compositions are named here (`res_…`) so that the value proofs can
  read them at an index.
-/
import proofs.«171835_j2800318677430_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The results as functions of the arguments -/

/-- Where the upper bound is at most zero: the unit is never active. -/
def res_neg (a2 : Vec F S1x8192 .f32) : IVec S1x8192 1 :=
  cmpf .ole a2 (broadcastInDim S1x8192 ![] bcast_S_S1x8192 (constant S_ .f32 0x00000000#32))

/-- Where the lower bound is at least zero: the unit is always active. -/
def res_pos (a1 : Vec F S1x8192 .f32) : IVec S1x8192 1 :=
  cmpf .oge a1 (broadcastInDim S1x8192 ![] bcast_S_S1x8192 (constant S_ .f32 0x00000000#32))

/-- Where neither holds: the bounds straddle zero. -/
def res_cross (a1 a2 : Vec F S1x8192 .f32) : IVec S1x8192 1 :=
  andi (noti (res_neg a2)) (noti (res_pos a1))

/-- The crossing slope upper / (upper − lower) where the bounds straddle zero (the divisor replaced by one
    elsewhere, so that no division by zero is taken), and zero elsewhere. -/
def res_slope (a1 a2 : Vec F S1x8192 .f32) : Vec F S1x8192 .f32 :=
  select (res_cross a1 a2)
    (Host.divf a2 (select (res_cross a1 a2) (subf a2 a1)
      (broadcastInDim S1x8192 ![] bcast_S_S1x8192 (constant S_ .f32 0x3F800000#32))))
    (broadcastInDim S1x8192 ![] bcast_S_S1x8192 (constant S_ .f32 0x00000000#32))

/-- Result 0: max(x, 0). -/
def res_v0 (a0 : Vec F S1x8192 .f32) : Vec F S1x8192 .f32 :=
  maximumf a0 (broadcastInDim S1x8192 ![] bcast_S_S1x8192 (constant S_ .f32 0x00000000#32))

/-- Result 1: the lower bound of the output, zero where the unit is never active and `lower` elsewhere. -/
def res_v14 (a1 a2 : Vec F S1x8192 .f32) : Vec F S1x8192 .f32 :=
  select (res_neg a2) (broadcastInDim S1x8192 ![] bcast_S_S1x8192 (id (constant S_ .f32 0x00000000#32))) a1

/-- Result 2: the upper bound of the output: zero where never active, `upper` where always active, slope · upper
    where the bounds straddle zero. -/
def res_v17 (a1 a2 : Vec F S1x8192 .f32) : Vec F S1x8192 .f32 :=
  select (res_neg a2) (broadcastInDim S1x8192 ![] bcast_S_S1x8192 (id (constant S_ .f32 0x00000000#32)))
    (select (res_pos a1) a2 (mulf (res_slope a1 a2) a2))

/-- The lower slope row: zero where never active, one elsewhere. -/
def res_v18 (a2 : Vec F S1x8192 .f32) : Vec F S1x8192 .f32 :=
  select (res_neg a2) (broadcastInDim S1x8192 ![] bcast_S_S1x8192 (constant S_ .f32 0x00000000#32))
    (broadcastInDim S1x8192 ![] bcast_S_S1x8192 (constant S_ .f32 0x3F800000#32))

/-- The upper slope row: zero where never active, one where always active, the crossing slope in between. -/
def res_v20 (a1 a2 : Vec F S1x8192 .f32) : Vec F S1x8192 .f32 :=
  select (res_neg a2) (broadcastInDim S1x8192 ![] bcast_S_S1x8192 (id (constant S_ .f32 0x00000000#32)))
    (select (res_pos a1) (broadcastInDim S1x8192 ![] bcast_S_S1x8192 (id (constant S_ .f32 0x3F800000#32)))
      (res_slope a1 a2))

/-- The diagonal matrix of a vector of length 8192, as the reference builds it: the row-index grid (plus a
    zero offset) compared with the column-index grid entry by entry selects, on the diagonal, the vector
    (padded by nothing) broadcast along the columns, and off it a zero. -/
def refDiag (v : Vec F S8192 .f32) : Vec F S8192x8192 .f32 :=
  select
    (cmpi .eq
      (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] v (constant S_ .f32 0x00000000#32) pads_S8192_S8192_000 h_S_)))
    (broadcastInDim S8192x8192 ![] bcast_S_S8192x8192 (constant S_ .f32 0x00000000#32))

/-- Result 3: the lower slope row on the diagonal. -/
def res_v25 (a2 : Vec F S1x8192 .f32) : Vec F S8192x8192 .f32 :=
  refDiag (shapeCast S8192 (res_v18 a2) shapeCasts_S1x8192_S8192)

/-- Result 4: the upper slope row on the diagonal. -/
def res_v27 (a1 a2 : Vec F S1x8192 .f32) : Vec F S8192x8192 .f32 :=
  refDiag (shapeCast S8192 (res_v20 a1 a2) shapeCasts_S1x8192_S8192)

/-- Result 5: the lower intercept row, all zeros. -/
def res_v21 : Vec F S1x8192 .f32 :=
  broadcastInDim S1x8192 ![] bcast_S_S1x8192 (constant S_ .f32 0x00000000#32)

/-- Result 6: the upper intercept row: slope · lower where the bounds straddle zero, zero elsewhere. -/
def res_v23 (a1 a2 : Vec F S1x8192 .f32) : Vec F S1x8192 .f32 :=
  select (res_cross a1 a2) (mulf (res_slope a1 a2) a1)
    (broadcastInDim S1x8192 ![] bcast_S_S1x8192 (id (constant S_ .f32 0x00000000#32)))

/-! ## The program as a straight line -/

/-- @main's 78 operations in order, every call read as the callee's operations on that call's buffers:
    max(x, 0) is three (the zero, its broadcast, the maximum); a plain selection is one; a selection with a
    scalar branch is three (the scalar at its own type, its broadcast, the select) and with two scalar
    branches three as well (two broadcasts, the select); each diagonal matrix is thirteen (the padding value,
    the pad, the two index grids, the zero offset and its broadcast, their sum, the comparison, the
    vector as a column, the off-diagonal value, and the inner selection's two broadcasts and select). -/
abbrev ops : List (HloOp τ sig (Elt F)) :=
  TRef.nullary main_call0.cst (constant S_ .f32 0x00000000#32) ::
  TRef.unary main_call0.cst main_call0.v0 (broadcastInDim S1x8192 ![] bcast_S_S1x8192) ::
  TRef.binary (.of main_arg0 : TRef sig ⟨S1x8192, .f32⟩) main_call0.v0 main_call0.v1 maximumf ::
  nullary main_cst (constant S_ .f32 0x00000000#32) ::
  unary main_cst main_v1 (broadcastInDim S1x8192 ![] bcast_S_S1x8192 : (⟨S_, .f32⟩ : BufTy).Contents (Elt F) → (⟨S1x8192, .f32⟩ : BufTy).Contents (Elt F)) ::
  binary main_arg2 main_v1 main_v2 (cmpf .ole : (⟨S1x8192, .f32⟩ : BufTy).Contents (Elt F) → (⟨S1x8192, .f32⟩ : BufTy).Contents (Elt F) → (⟨S1x8192, .i1⟩ : BufTy).Contents (Elt F)) ::
  nullary main_cst_0 (constant S_ .f32 0x00000000#32) ::
  unary main_cst_0 main_v3 (broadcastInDim S1x8192 ![] bcast_S_S1x8192 : (⟨S_, .f32⟩ : BufTy).Contents (Elt F) → (⟨S1x8192, .f32⟩ : BufTy).Contents (Elt F)) ::
  binary main_arg1 main_v3 main_v4 (cmpf .oge : (⟨S1x8192, .f32⟩ : BufTy).Contents (Elt F) → (⟨S1x8192, .f32⟩ : BufTy).Contents (Elt F) → (⟨S1x8192, .i1⟩ : BufTy).Contents (Elt F)) ::
  unary main_v2 main_v5 (noti : (⟨S1x8192, .i1⟩ : BufTy).Contents (Elt F) → (⟨S1x8192, .i1⟩ : BufTy).Contents (Elt F)) ::
  unary main_v4 main_v6 (noti : (⟨S1x8192, .i1⟩ : BufTy).Contents (Elt F) → (⟨S1x8192, .i1⟩ : BufTy).Contents (Elt F)) ::
  binary main_v5 main_v6 main_v7 (andi : (⟨S1x8192, .i1⟩ : BufTy).Contents (Elt F) → (⟨S1x8192, .i1⟩ : BufTy).Contents (Elt F) → (⟨S1x8192, .i1⟩ : BufTy).Contents (Elt F)) ::
  binary main_arg2 main_arg1 main_v8 (subf : (⟨S1x8192, .f32⟩ : BufTy).Contents (Elt F) → (⟨S1x8192, .f32⟩ : BufTy).Contents (Elt F) → (⟨S1x8192, .f32⟩ : BufTy).Contents (Elt F)) ::
  nullary main_cst_1 (constant S_ .f32 0x3F800000#32) ::
  unary main_cst_1 main_v9 (broadcastInDim S1x8192 ![] bcast_S_S1x8192 : (⟨S_, .f32⟩ : BufTy).Contents (Elt F) → (⟨S1x8192, .f32⟩ : BufTy).Contents (Elt F)) ::
  TRef.ternary (.of main_v7 : TRef sig ⟨S1x8192, .i1⟩) (.of main_v8 : TRef sig ⟨S1x8192, .f32⟩) (.of main_v9 : TRef sig ⟨S1x8192, .f32⟩) main_call1.v0 select ::
  binary main_arg2 main_v10 main_v11 (Host.divf : (⟨S1x8192, .f32⟩ : BufTy).Contents (Elt F) → (⟨S1x8192, .f32⟩ : BufTy).Contents (Elt F) → (⟨S1x8192, .f32⟩ : BufTy).Contents (Elt F)) ::
  nullary main_cst_2 (constant S_ .f32 0x00000000#32) ::
  unary main_cst_2 main_v12 (broadcastInDim S1x8192 ![] bcast_S_S1x8192 : (⟨S_, .f32⟩ : BufTy).Contents (Elt F) → (⟨S1x8192, .f32⟩ : BufTy).Contents (Elt F)) ::
  TRef.ternary (.of main_v7 : TRef sig ⟨S1x8192, .i1⟩) (.of main_v11 : TRef sig ⟨S1x8192, .f32⟩) (.of main_v12 : TRef sig ⟨S1x8192, .f32⟩) main_call2.v0 select ::
  nullary main_cst_3 (constant S_ .f32 0x00000000#32) ::
  TRef.unary (.of main_cst_3 : TRef sig ⟨S_, .f32⟩) main_call3.v0 id ::
  TRef.unary main_call3.v0 main_call3.v1 (broadcastInDim S1x8192 ![] bcast_S_S1x8192) ::
  TRef.ternary (.of main_v2 : TRef sig ⟨S1x8192, .i1⟩) main_call3.v1 (.of main_arg1 : TRef sig ⟨S1x8192, .f32⟩) main_call3.v2 select ::
  binary main_v13 main_arg2 main_v15 (mulf : (⟨S1x8192, .f32⟩ : BufTy).Contents (Elt F) → (⟨S1x8192, .f32⟩ : BufTy).Contents (Elt F) → (⟨S1x8192, .f32⟩ : BufTy).Contents (Elt F)) ::
  TRef.ternary (.of main_v4 : TRef sig ⟨S1x8192, .i1⟩) (.of main_arg2 : TRef sig ⟨S1x8192, .f32⟩) (.of main_v15 : TRef sig ⟨S1x8192, .f32⟩) main_call4.v0 select ::
  nullary main_cst_4 (constant S_ .f32 0x00000000#32) ::
  TRef.unary (.of main_cst_4 : TRef sig ⟨S_, .f32⟩) main_call5.v0 id ::
  TRef.unary main_call5.v0 main_call5.v1 (broadcastInDim S1x8192 ![] bcast_S_S1x8192) ::
  TRef.ternary (.of main_v2 : TRef sig ⟨S1x8192, .i1⟩) main_call5.v1 (.of main_v16 : TRef sig ⟨S1x8192, .f32⟩) main_call5.v2 select ::
  nullary main_cst_5 (constant S_ .f32 0x00000000#32) ::
  nullary main_cst_6 (constant S_ .f32 0x3F800000#32) ::
  TRef.unary (.of main_cst_5 : TRef sig ⟨S_, .f32⟩) main_call6.v0 (broadcastInDim S1x8192 ![] bcast_S_S1x8192) ::
  TRef.unary (.of main_cst_6 : TRef sig ⟨S_, .f32⟩) main_call6.v1 (broadcastInDim S1x8192 ![] bcast_S_S1x8192) ::
  TRef.ternary (.of main_v2 : TRef sig ⟨S1x8192, .i1⟩) main_call6.v0 main_call6.v1 main_call6.v2 select ::
  nullary main_cst_7 (constant S_ .f32 0x3F800000#32) ::
  TRef.unary (.of main_cst_7 : TRef sig ⟨S_, .f32⟩) main_call7.v0 id ::
  TRef.unary main_call7.v0 main_call7.v1 (broadcastInDim S1x8192 ![] bcast_S_S1x8192) ::
  TRef.ternary (.of main_v4 : TRef sig ⟨S1x8192, .i1⟩) main_call7.v1 (.of main_v13 : TRef sig ⟨S1x8192, .f32⟩) main_call7.v2 select ::
  nullary main_cst_8 (constant S_ .f32 0x00000000#32) ::
  TRef.unary (.of main_cst_8 : TRef sig ⟨S_, .f32⟩) main_call8.v0 id ::
  TRef.unary main_call8.v0 main_call8.v1 (broadcastInDim S1x8192 ![] bcast_S_S1x8192) ::
  TRef.ternary (.of main_v2 : TRef sig ⟨S1x8192, .i1⟩) main_call8.v1 (.of main_v19 : TRef sig ⟨S1x8192, .f32⟩) main_call8.v2 select ::
  nullary main_cst_9 (constant S_ .f32 0x00000000#32) ::
  unary main_cst_9 main_v21 (broadcastInDim S1x8192 ![] bcast_S_S1x8192 : (⟨S_, .f32⟩ : BufTy).Contents (Elt F) → (⟨S1x8192, .f32⟩ : BufTy).Contents (Elt F)) ::
  binary main_v13 main_arg1 main_v22 (mulf : (⟨S1x8192, .f32⟩ : BufTy).Contents (Elt F) → (⟨S1x8192, .f32⟩ : BufTy).Contents (Elt F) → (⟨S1x8192, .f32⟩ : BufTy).Contents (Elt F)) ::
  nullary main_cst_10 (constant S_ .f32 0x00000000#32) ::
  TRef.unary (.of main_cst_10 : TRef sig ⟨S_, .f32⟩) main_call9.v0 id ::
  TRef.unary main_call9.v0 main_call9.v1 (broadcastInDim S1x8192 ![] bcast_S_S1x8192) ::
  TRef.ternary (.of main_v7 : TRef sig ⟨S1x8192, .i1⟩) (.of main_v22 : TRef sig ⟨S1x8192, .f32⟩) main_call9.v1 main_call9.v2 select ::
  reshape main_v18 main_v24 rfl shapeCasts_S1x8192_S8192 ::
  TRef.nullary main_call10.cst (constant S_ .f32 0x00000000#32) ::
  TRef.binary (.of main_v24 : TRef sig ⟨S8192, .f32⟩) main_call10.cst main_call10.v0 (fun x v => pad S8192 ![0] ![0] ![0] x v pads_S8192_S8192_000 h_S_) ::
  TRef.nullary main_call10.v1 (iotaInDim S8192x8192 32 0) ::
  TRef.nullary main_call10.v2 (iotaInDim S8192x8192 32 1) ::
  TRef.nullary main_call10.c (constantI S_ 32 0#32) ::
  TRef.unary main_call10.c main_call10.v3 (broadcastInDim S8192x8192 ![] bcast_S_S8192x8192) ::
  TRef.binary main_call10.v1 main_call10.v3 main_call10.v4 addi ::
  TRef.binary main_call10.v4 main_call10.v2 main_call10.v5 (cmpi .eq) ::
  TRef.unary main_call10.v0 main_call10.v6 (broadcastInDim S8192x1 ![0] bcast_S8192_S8192x1_0) ::
  TRef.nullary main_call10.cst_0 (constant S_ .f32 0x00000000#32) ::
  TRef.unary main_call10.v6 main_call10.call0.v0 (broadcastInDim S8192x8192 ![0, 1] bcast_S8192x1_S8192x8192_0_1) ::
  TRef.unary main_call10.cst_0 main_call10.call0.v1 (broadcastInDim S8192x8192 ![] bcast_S_S8192x8192) ::
  TRef.ternary main_call10.v5 main_call10.call0.v0 main_call10.call0.v1 main_call10.call0.v2 select ::
  reshape main_v20 main_v26 rfl shapeCasts_S1x8192_S8192 ::
  TRef.nullary main_call11.cst (constant S_ .f32 0x00000000#32) ::
  TRef.binary (.of main_v26 : TRef sig ⟨S8192, .f32⟩) main_call11.cst main_call11.v0 (fun x v => pad S8192 ![0] ![0] ![0] x v pads_S8192_S8192_000 h_S_) ::
  TRef.nullary main_call11.v1 (iotaInDim S8192x8192 32 0) ::
  TRef.nullary main_call11.v2 (iotaInDim S8192x8192 32 1) ::
  TRef.nullary main_call11.c (constantI S_ 32 0#32) ::
  TRef.unary main_call11.c main_call11.v3 (broadcastInDim S8192x8192 ![] bcast_S_S8192x8192) ::
  TRef.binary main_call11.v1 main_call11.v3 main_call11.v4 addi ::
  TRef.binary main_call11.v4 main_call11.v2 main_call11.v5 (cmpi .eq) ::
  TRef.unary main_call11.v0 main_call11.v6 (broadcastInDim S8192x1 ![0] bcast_S8192_S8192x1_0) ::
  TRef.nullary main_call11.cst_0 (constant S_ .f32 0x00000000#32) ::
  TRef.unary main_call11.v6 main_call11.call0.v0 (broadcastInDim S8192x8192 ![0, 1] bcast_S8192x1_S8192x8192_0_1) ::
  TRef.unary main_call11.cst_0 main_call11.call0.v1 (broadcastInDim S8192x8192 ![] bcast_S_S8192x8192) ::
  TRef.ternary main_call11.v5 main_call11.call0.v0 main_call11.call0.v1 main_call11.call0.v2 select ::
  []

-- seventy-eight steps: the comparison descends once per statement
set_option maxRecDepth 8192 in
/-- @main is that straight line: sequencing in this program monad grafts the continuation onto the leaves of
    a finite tree by structural recursion, so a call's body followed by the rest of @main and the same
    operations in one chain are the same tree by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    binary_bufs_sub .., nullary_bufs_sub .., unary_bufs_sub .., ternary_bufs_sub .., binary_bufs_sub .., nullary_bufs_sub ..,
    unary_bufs_sub .., ternary_bufs_sub .., nullary_bufs_sub .., unary_bufs_sub .., unary_bufs_sub .., ternary_bufs_sub ..,
    binary_bufs_sub .., ternary_bufs_sub .., nullary_bufs_sub .., unary_bufs_sub .., unary_bufs_sub .., ternary_bufs_sub ..,
    nullary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., binary_bufs_sub .., nullary_bufs_sub .., unary_bufs_sub ..,
    unary_bufs_sub .., ternary_bufs_sub .., reshape_bufs_sub .., nullary_bufs_sub .., binary_bufs_sub .., nullary_bufs_sub ..,
    nullary_bufs_sub .., nullary_bufs_sub .., unary_bufs_sub .., binary_bufs_sub .., binary_bufs_sub .., unary_bufs_sub ..,
    nullary_bufs_sub .., unary_bufs_sub .., unary_bufs_sub .., ternary_bufs_sub .., reshape_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..⟩

/-! ## What each result buffer holds after the line -/

theorem after_v0 (V : Valuation τ sig (Elt F)) :
    after ops V (main_v0 : DevRef τ sig) = res_v0 (V (main_arg0 : DevRef τ sig)) := by
  after_results_simp
  rfl

theorem after_v14 (V : Valuation τ sig (Elt F)) :
    after ops V (main_v14 : DevRef τ sig) = res_v14 (V (main_arg1 : DevRef τ sig)) (V (main_arg2 : DevRef τ sig)) := by
  after_results_simp
  rfl

theorem after_v17 (V : Valuation τ sig (Elt F)) :
    after ops V (main_v17 : DevRef τ sig) = res_v17 (V (main_arg1 : DevRef τ sig)) (V (main_arg2 : DevRef τ sig)) := by
  after_results_simp
  rfl

theorem after_v25 (V : Valuation τ sig (Elt F)) :
    after ops V (main_v25 : DevRef τ sig) = res_v25 (V (main_arg2 : DevRef τ sig)) := by
  after_results_simp
  rfl

theorem after_v27 (V : Valuation τ sig (Elt F)) :
    after ops V (main_v27 : DevRef τ sig) = res_v27 (V (main_arg1 : DevRef τ sig)) (V (main_arg2 : DevRef τ sig)) := by
  after_results_simp
  rfl

theorem after_v21 (V : Valuation τ sig (Elt F)) :
    after ops V (main_v21 : DevRef τ sig) = res_v21 := by
  after_results_simp
  rfl

theorem after_v23 (V : Valuation τ sig (Elt F)) :
    after ops V (main_v23 : DevRef τ sig) = res_v23 (V (main_arg1 : DevRef τ sig)) (V (main_arg2 : DevRef τ sig)) := by
  after_results_simp
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

theorem after_arg2 (V : Valuation τ sig (Elt F)) :
    after ops V (main_arg2 : DevRef τ sig) = V (main_arg2 : DevRef τ sig) := by
  after_results_simp

theorem after_arg3 (V : Valuation τ sig (Elt F)) :
    after ops V (main_arg3 : DevRef τ sig) = V (main_arg3 : DevRef τ sig) := by
  after_results_simp

/-! ## The run -/

/-- On every device, for any float values, from any memory with zero counters: every weakly fair execution of
    @main terminates with each of the seven results at its composed term of the arguments' launch contents
    and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = res_v0 (m ((c.tc : Thread nD τ).loc main_arg0))
      ∧ r.2.mem ((c.tc : Thread nD τ).loc main_v14) = res_v14 (m ((c.tc : Thread nD τ).loc main_arg1)) (m ((c.tc : Thread nD τ).loc main_arg2))
      ∧ r.2.mem ((c.tc : Thread nD τ).loc main_v17) = res_v17 (m ((c.tc : Thread nD τ).loc main_arg1)) (m ((c.tc : Thread nD τ).loc main_arg2))
      ∧ r.2.mem ((c.tc : Thread nD τ).loc main_v25) = res_v25 (m ((c.tc : Thread nD τ).loc main_arg2))
      ∧ r.2.mem ((c.tc : Thread nD τ).loc main_v27) = res_v27 (m ((c.tc : Thread nD τ).loc main_arg1)) (m ((c.tc : Thread nD τ).loc main_arg2))
      ∧ r.2.mem ((c.tc : Thread nD τ).loc main_v21) = res_v21
      ∧ r.2.mem ((c.tc : Thread nD τ).loc main_v23) = res_v23 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v0).trans (after_v0 _),
      (h c main_v14).trans (after_v14 _),
      (h c main_v17).trans (after_v17 _),
      (h c main_v25).trans (after_v25 _),
      (h c main_v27).trans (after_v27 _),
      (h c main_v21).trans (after_v21 _),
      (h c main_v23).trans (after_v23 _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ)

end Cert.ReferenceIdeal.RefRun

end
-- ==== Proof.RefRead.lean ====
/-
  The reference's two square results read at an index. The reference builds the diagonal matrix of a vector
  of length 8192 from two index grids: the row-number grid (plus a zero offset) is compared entry by entry with
  the column-number grid, and where they agree the entry is the vector, first padded by nothing, then stood up
  as a column and repeated along the columns; elsewhere it is a zero repeated everywhere. At entry (r, c) that
  is the vector's entry r when r = c and zero otherwise. Row and column numbers are below 8192, far below
  2³², so comparing their 32-bit words is comparing the numbers. The vector itself is a [1, 8192] row read
  as a [8192] vector, whose entry r is the row's entry (0, r). Hence each square result is the diagonal
  matrix of its slope row.
-/
import proofs.«171835_j2800318677430_1_alg».proof.Proof.RefRun
import proofs.«171835_j2800318677430_1_alg».proof.Proof.Spec
import Idealize.ShloMosaic.Lib.ValueLayout
import Idealize.ShloMosaic.Lib.KernelVsHost
import Idealize.ShloMosaic.Lib.IdealHost
import Idealize.ShloMosaic.Lib.StableHlo.Predicate

noncomputable section

namespace Cert.ReferenceIdeal.RefRead

open Cert.ReferenceIdeal Cert.ReferenceIdeal.Gen Cert.ReferenceIdeal.RefRun Idealize.ShloMosaic Idealize.ShloMosaic.ValueIdx

variable {F : FTy → Type} [FloatOps F]

/-- Two numbers below 2³² have the same 32-bit word exactly when they are equal. -/
theorem word_eq_iff {r c : Nat} (hr : r < 2 ^ 32) (hc : c < 2 ^ 32) : BitVec.ofNat 32 r = BitVec.ofNat 32 c ↔ r = c := by
  constructor
  · intro h
    have h' := congrArg BitVec.toNat h
    simp only [BitVec.toNat_ofNat] at h'
    omega
  · rintro rfl; rfl

/-- The grid comparison at entry (r, c): the row number's word plus the zero offset equals the column number's word
    exactly when r = c. -/
theorem diagMask_apply (r c : Fin 8192) :
    cmpi .eq
        (addi (iotaInDim S8192x8192 32 0) (broadcastInDim S8192x8192 ![] bcast_S_S8192x8192 (constantI S_ 32 0#32)))
        (iotaInDim S8192x8192 32 1) (ix2 r c) = 1#1 ↔ r.val = c.val := by
  show IntOp.cmpi .eq (IntOp.addi (BitVec.ofNat 32 r.val)
      (broadcastInDim S8192x8192 ![] bcast_S_S8192x8192 (constantI S_ 32 0#32) (ix2 r c))) (BitVec.ofNat 32 c.val) = 1#1 ↔ _
  rw [broadcastInDim_scalar_apply, StableHlo.Predicate.cmpi_eq_iff]
  show BitVec.ofNat 32 r.val + 0#32 = BitVec.ofNat 32 c.val ↔ _
  rw [BitVec.add_zero]
  exact word_eq_iff (by have := r.isLt; omega) (by have := c.isLt; omega)

/-- The on-diagonal branch at entry (r, c): the vector padded by nothing, stood up as a column and repeated along
    the columns, reads the vector's entry r. -/
theorem onDiag_apply (w : Vec F S8192 .f32) (r c : Fin 8192) :
    broadcastInDim S8192x8192 ![0, 1] bcast_S8192x1_S8192x8192_0_1
        (broadcastInDim S8192x1 ![0] bcast_S8192_S8192x1_0
          (pad S8192 ![0] ![0] ![0] w (constant S_ .f32 0x00000000#32) pads_S8192_S8192_000 h_S_)) (ix2 r c)
      = w (ix1 r) := by
  rw [broadcastInDim_apply _ _ _ _ (ix2 r (0 : Fin 1)) (fun a => match a with | ⟨0, _⟩ => rfl | ⟨1, _⟩ => rfl),
    broadcastInDim_apply _ _ _ _ (ix1 r) (fun a => match a with | ⟨0, _⟩ => rfl)]
  exact pad_apply_of_inside _ _ _ _ _ _ _ _ (ix1 r) (fun a => match a with
    | ⟨0, _⟩ => by show r.val = 0 + r.val * (0 + 1); omega)

/-- The specification's diagonal matrix at entry (r, c), the coordinates named. -/
theorem diagOf_ix2 (v : Vec F S1x8192 .f32) (r c : Fin 8192) :
    Cert.Spec.diagOf v (ix2 r c)
      = if r.val = c.val then v (ix2 (0 : Fin 1) r) else FloatOps.ofBits .f32 0x00000000#32 :=
  (Cert.Spec.diagOf_apply_row v (ix2 r c)).trans rfl

/-- The reference's diagonal construction, applied to a [1, 8192] row read as a vector, is the diagonal matrix of
    the row. -/
theorem refDiag_eq (v : Vec F S1x8192 .f32) :
    refDiag (shapeCast S8192 v shapeCasts_S1x8192_S8192) = Cert.Spec.diagOf v := by
  funext i
  obtain ⟨r, c, rfl⟩ : ∃ (r : Fin 8192) (c : Fin 8192), i = ix2 r c := ⟨i 0, i 1, eq_ix2 i⟩
  rw [diagOf_ix2]
  unfold refDiag
  rw [select_apply]
  by_cases h : r.val = c.val
  · rw [(diagMask_apply r c).mpr h, select_one, if_pos h, onDiag_apply, shapeCast_1a_a_apply]
  · rw [eq_zero_of_ne_one (mt (diagMask_apply r c).mp h), select_zero, if_neg h, broadcastInDim_scalar_apply]
    rfl

/-- Result 3 is the diagonal matrix of the lower slope row. -/
theorem res_v25_eq (a2 : Vec F S1x8192 .f32) : res_v25 a2 = Cert.Spec.diagOf (res_v18 a2) :=
  refDiag_eq (res_v18 a2)

/-- Result 4 is the diagonal matrix of the upper slope row. -/
theorem res_v27_eq (a1 a2 : Vec F S1x8192 .f32) : res_v27 a1 a2 = Cert.Spec.diagOf (res_v20 a1 a2) :=
  refDiag_eq (res_v20 a1 a2)

end Cert.ReferenceIdeal.RefRead

end
-- ==== Proof.Bridge.lean ====
/-
  The rows the two programs compute are the same functions of the three argument rows, entry by entry, on the
  extended reals. Both sides are compositions of entrywise operations: the comparisons with zero, the two
  negated masks and their conjunction, the guarded quotient upper / (upper − lower), products with the slope,
  and selections between them and the constants zero and one. They differ only in spelling: the tiled program
  negates a one-bit mask by exclusive-or with one where the reference complements it, broadcasts a scalar
  constant where the reference builds a constant tensor, and divides on the vector unit where the reference
  divides on the host — at the ideal instance both divisions are the extended reals' one quotient.
-/
import proofs.«171835_j2800318677430_1_alg».proof.Proof.Gen.KernelIdeal.Skeleton
import proofs.«171835_j2800318677430_1_alg».proof.Proof.RefRun
import Idealize.ShloMosaic.Lib.ValueIdx

noncomputable section

namespace Cert.Bridge

open Idealize.ShloMosaic Idealize.ShloMosaic.ValueIdx
open Cert.ReferenceIdeal.RefRun Cert.KernelIdeal.Gen

/-- Complementing one bit is adding one to it. -/
theorem not_eq_xor_one (b : BitVec 1) : ~~~b = b ^^^ 1#1 := by
  rcases BitVec.eq_zero_or_eq_one b with h | h <;> subst h <;> decide

abbrev Row := Vec Ideal Cert.ReferenceIdeal.S1x8192 .f32

/-- max(x, 0), both ways. -/
theorem relu_eq (a0 : Row) : res_v0 a0 = k0_pay8 (F := Ideal) a0 := by
  funext i
  simp only [res_v0, k0_pay8, maximumf, broadcast, broadcastInDim, constant]

/-- The output's lower bound. -/
theorem lowerRet_eq (a1 a2 : Row) : res_v14 a1 a2 = k0_pay9 (F := Ideal) a1 a2 := by
  funext i
  simp only [res_v14, res_neg, k0_pay9, k0_pay4, select, cmpf, broadcast, broadcastInDim, constant, id]

/-- The output's upper bound. -/
theorem upperRet_eq (a1 a2 : Row) : res_v17 a1 a2 = k0_pay10 (F := Ideal) a1 a2 := by
  funext i
  simp only [res_v17, res_neg, res_pos, res_slope, res_cross, k0_pay10, k0_pay4, k0_pay5, k0_pay6, k0_pay7,
    select, cmpf, broadcast, broadcastInDim, constant, andi, noti, xori, constantI, mulf, subf, divf, Host.divf,
    IntOp.xori, not_eq_xor_one, id]
  rfl

/-- The lower slope row. -/
theorem lowerW_eq (a2 : Row) : res_v18 a2 = k0_pay11 (F := Ideal) a2 := by
  funext i
  simp only [res_v18, res_neg, k0_pay11, k0_pay4, select, cmpf, broadcast, broadcastInDim, constant, id]

/-- The upper slope row. -/
theorem upperW_eq (a1 a2 : Row) :
    res_v20 a1 a2 = k0_pay1 (F := Ideal) (k0_pay4 a2) (k0_pay5 a1) (k0_pay7 a1 a2) := by
  funext i
  simp only [res_v20, res_neg, res_pos, res_slope, res_cross, k0_pay1, k0_pay4, k0_pay5, k0_pay6, k0_pay7,
    select, cmpf, broadcast, broadcastInDim, constant, andi, noti, xori, constantI, mulf, subf, divf, Host.divf,
    IntOp.xori, not_eq_xor_one, id]
  rfl

/-- The lower intercept row: zeros. -/
theorem lowerB_eq : (res_v21 : Row) = k0_pay2 (F := Ideal) := by
  funext i
  simp only [res_v21, k0_pay2, broadcast, broadcastInDim, constant]

/-- The upper intercept row. -/
theorem upperB_eq (a1 a2 : Row) :
    res_v23 a1 a2 = k0_pay3 (F := Ideal) a1 (k0_pay6 a1 a2) (k0_pay7 a1 a2) := by
  funext i
  simp only [res_v23, res_neg, res_pos, res_slope, res_cross, k0_pay3, k0_pay4, k0_pay5, k0_pay6, k0_pay7,
    select, cmpf, broadcast, broadcastInDim, constant, andi, noti, xori, constantI, mulf, subf, divf, Host.divf,
    IntOp.xori, not_eq_xor_one, id]
  rfl

end Cert.Bridge

end
-- ==== Proof.lean ====
/-
  The certificate of the ReLU relaxation layer (8192 units): the tiled two-stage program against its reference.

  Stage 0 computes, entry by entry from the pre-activation row and its two bound rows, the seven result rows
  (the activation, the output's bounds, the two slope rows, the two intercept rows); stage 1 writes the two
  8192 × 8192 matrices that carry the slope rows on their diagonals, tile by tile: a 512 × 512 tile on the
  block diagonal selects its segment of the row onto its own diagonal, every other tile is zero. The reference
  computes the same rows by the same entrywise formulas and builds each matrix by comparing a row-index grid
  with a column-index grid.

  The three frames: each program runs to the end from any memory and leaves its arguments as launched — for
  the tiled program (at the word level and at the ideal instance alike) by running its two stages in order
  over the buffers' contents at the stage boundaries; for the reference by reading its straight line of host
  operations back. The idealization rewrote nothing, so that claim is empty. The value claim: at the ideal
  instance the rows agree because both sides are the same compositions of entrywise operations (the one
  difference, the division on the vector unit against the division on the host, vanishes there), and the
  matrices agree because both are the diagonal matrix of their row: entry (r, c) is the row's entry at c — which
  on the diagonal is its entry at r — when r = c, and zero otherwise.
-/
import proofs.«171835_j2800318677430_1_alg».proof.Defs
import proofs.«171835_j2800318677430_1_alg».proof.Proof.Gen.Kernel
import proofs.«171835_j2800318677430_1_alg».proof.Proof.Gen.KernelIdeal
import proofs.«171835_j2800318677430_1_alg».proof.Proof.Gen.ReferenceIdeal
import proofs.«171835_j2800318677430_1_alg».proof.Proof.Gen.Pre_finite_inputs
import proofs.«171835_j2800318677430_1_alg».proof.Proof.Kernel.Run
import proofs.«171835_j2800318677430_1_alg».proof.Proof.KernelIdeal.Run
import proofs.«171835_j2800318677430_1_alg».proof.Proof.KernelIdeal.Value0
import proofs.«171835_j2800318677430_1_alg».proof.Proof.KernelIdeal.Value1
import proofs.«171835_j2800318677430_1_alg».proof.Proof.RefRun
import proofs.«171835_j2800318677430_1_alg».proof.Proof.RefRead
import proofs.«171835_j2800318677430_1_alg».proof.Proof.Bridge
import proofs.«171835_j2800318677430_1_alg».proof.Proof.Spec
import Idealize.ShloMosaic.Adequacy
import Idealize.ShloMosaic.Init

noncomputable section

namespace Cert.Proof

open Idealize.ShloMosaic Idealize.ShloMosaic.TcCoe Idealize.SL.Sem

/-- The word-level program runs and keeps its arguments: its two stages in order. -/
theorem frame_words : Cert.frame_Kernel (hKernel := Cert.Kernel.Gen.facts) (hPre_finite_inputs := Cert.Pre_finite_inputs.Gen.facts) :=
  fun m ρ _ => Cert.Kernel.Hand.frame m ρ

/-- The same program read at the ideal instance runs and keeps its arguments. -/
theorem frame_ideal : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run read back, the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2)
    (Cert.ReferenceIdeal.RefRun.run (F := Ideal) m ρ)

open Cert.KernelIdeal Cert.KernelIdeal.Gen Cert.KernelIdeal.Hand in
/-- The tiled program's results, named as functions of its three argument rows. -/
theorem kernel_values (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v0_0) = k0_pay8 (F := Ideal) (m ((c.tc : Thread nD τ).loc main_arg0))
      ∧ r.2.mem ((c.tc : Thread nD τ).loc main_v0_1) = k0_pay9 (F := Ideal) (m ((c.tc : Thread nD τ).loc main_arg1)) (m ((c.tc : Thread nD τ).loc main_arg2))
      ∧ r.2.mem ((c.tc : Thread nD τ).loc main_v0_2) = k0_pay10 (F := Ideal) (m ((c.tc : Thread nD τ).loc main_arg1)) (m ((c.tc : Thread nD τ).loc main_arg2))
      ∧ r.2.mem ((c.tc : Thread nD τ).loc main_v1_0) = Cert.Spec.diagOf (k0_pay11 (F := Ideal) (m ((c.tc : Thread nD τ).loc main_arg2)))
      ∧ r.2.mem ((c.tc : Thread nD τ).loc main_v1_1) = Cert.Spec.diagOf (k0_pay1 (F := Ideal) (k0_pay4 (m ((c.tc : Thread nD τ).loc main_arg2))) (k0_pay5 (m ((c.tc : Thread nD τ).loc main_arg1))) (k0_pay7 (m ((c.tc : Thread nD τ).loc main_arg1)) (m ((c.tc : Thread nD τ).loc main_arg2))))
      ∧ r.2.mem ((c.tc : Thread nD τ).loc main_v0_5) = k0_pay2 (F := Ideal)
      ∧ r.2.mem ((c.tc : Thread nD τ).loc main_v0_6) = k0_pay3 (F := Ideal) (m ((c.tc : Thread nD τ).loc main_arg1)) (k0_pay6 (m ((c.tc : Thread nD τ).loc main_arg1)) (m ((c.tc : Thread nD τ).loc main_arg2))) (k0_pay7 (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono (fun r h c =>
    ⟨(h c).1.1.trans (final0_3 (Va m) c),
     (h c).1.2.1.trans (final0_4 (Va m) c),
     (h c).1.2.2.1.trans (final0_5 (Va m) c),
     (h c).1.2.2.2.1.trans ((final1_2 (Vb m) c).trans (congrArg Cert.Spec.diagOf ((Vb_lw m c).trans (final0_6 (Va m) c)))),
     (h c).1.2.2.2.2.1.trans ((final1_3 (Vb m) c).trans (congrArg Cert.Spec.diagOf ((Vb_uw m c).trans (final0_7 (Va m) c)))),
     (h c).1.2.2.2.2.2.1.trans (final0_8 (Va m) c),
     (h c).1.2.2.2.2.2.2.trans (final0_9 (Va m) c),
     (h c).2⟩)
    (run_named (F := Ideal) m ρ)

open Cert.ReferenceIdeal.RefRun Cert.ReferenceIdeal.RefRead Cert.Bridge in
/-- At the ideal instance, from memories that agree on the arguments, both programs end with the same seven
    results: the rows by the entrywise agreement of the two spellings, the matrices because each is the diagonal
    matrix of its (agreeing) row. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, _, _, _, _, kernel_values m ρ, ?_⟩
  refine (θ_run (Cert.ReferenceIdeal.defs (F := Ideal)) _ _).mono (fun r h c => ?_) (Cert.ReferenceIdeal.RefRun.run (F := Ideal) m' ρ')
  obtain ⟨h0, h1, h2, h3, h4, h5, h6, hargs⟩ := h c
  obtain ⟨e0, e1, e2, -⟩ := hagree c
  refine ⟨h0.trans ?_, h1.trans ?_, h2.trans ?_, h3.trans ?_, h4.trans ?_, h5.trans ?_, h6.trans ?_, hargs⟩
  · rw [e0]; exact relu_eq _
  · rw [e1, e2]; exact lowerRet_eq _ _
  · rw [e1, e2]; exact upperRet_eq _ _
  · rw [e2, res_v25_eq, lowerW_eq]
  · rw [e1, e2, res_v27_eq, upperW_eq]
  · exact lowerB_eq
  · rw [e1, e2]; exact upperB_eq _ _

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
